-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x19x1024x2048 : Shape := ⟨4, ![1, 19, 1024, 2048]⟩
abbrev S1x1024x2048 : Shape := ⟨3, ![1, 1024, 2048]⟩
abbrev S_ : Shape := ⟨0, ![]⟩

class Facts : Prop where
  bcast_S_S1x19x1024x2048 : S_.BroadcastsInDim S1x19x1024x2048 (![] : Fin 0 → Fin S1x19x1024x2048.rank)
  reducesTo_S1x19x1024x2048_S_d0_1_2_3 : S1x19x1024x2048.ReducesTo [0, 1, 2, 3] S_
  h_S_ : 0 < S_.numel

variable [Facts]

def fn {F : FTy → Type} [FloatOps F] (main_arg0 : FVec F S1x19x1024x2048 .f32) (main_arg1 : IVec S1x1024x2048 32) : IVec S_ 1 :=
  let main_v0 : FVec F S1x19x1024x2048 .f32 := Host.absf main_arg0
  let main_cst : FVec F S_ .f32 := constant S_ .f32 0x7F800000#32
  let main_v1 : FVec F S1x19x1024x2048 .f32 := broadcastInDim S1x19x1024x2048 ![] bcast_S_S1x19x1024x2048 main_cst
  let main_v2 : IVec S1x19x1024x2048 1 := cmpf .olt main_v0 main_v1
  let main_c : IVec S_ 1 := constantI S_ 1 1#1
  let main_v3 : IVec S_ 1 := (fun x v => Host.reduce IntOp.andi x v reducesTo_S1x19x1024x2048_S_d0_1_2_3 h_S_) main_v2 main_c
  main_v3
-- ==== Kernel.lean ====
abbrev S1x19x1024x2048 : Shape := ⟨4, ![1, 19, 1024, 2048]⟩
abbrev S1x1024x2048 : Shape := ⟨3, ![1, 1024, 2048]⟩
abbrev S19x1024x2048 : Shape := ⟨3, ![19, 1024, 2048]⟩
abbrev S1024x2048 : Shape := ⟨2, ![1024, 2048]⟩
abbrev S19x10 : Shape := ⟨2, ![19, 10]⟩
abbrev S19x128x128 : Shape := ⟨3, ![19, 128, 128]⟩
abbrev S128x128 : Shape := ⟨2, ![128, 128]⟩
abbrev S1x128x128 : Shape := ⟨3, ![1, 128, 128]⟩
abbrev S19x128 : Shape := ⟨2, ![19, 128]⟩
abbrev S19 : Shape := ⟨1, ![19]⟩
abbrev S19x1 : Shape := ⟨2, ![19, 1]⟩
abbrev S_ : Shape := ⟨0, ![]⟩

abbrev nBuf : Space → Nat
  | .hbm => 24
  | .vmem => 7
  | .smem => 0
  | _ => 0

abbrev bufTy : (tb : Table) → Fin (tcTables nBuf tb) → BufTy
  | .hbm, ⟨0, _⟩ => ⟨S1x19x1024x2048, .f32⟩
  | .hbm, ⟨1, _⟩ => ⟨S1x1024x2048, .i32⟩
  | .hbm, ⟨2, _⟩ => ⟨S19x1024x2048, .f32⟩
  | .hbm, ⟨3, _⟩ => ⟨S1024x2048, .i32⟩
  | .hbm, ⟨4, _⟩ => ⟨S19x10, .f32⟩
  | .hbm, ⟨5, _⟩ => ⟨S19x10, .f32⟩
  | .hbm, ⟨6, _⟩ => ⟨S19x10, .f32⟩
  | .hbm, ⟨7, _⟩ => ⟨S_, .f32⟩
  | .hbm, ⟨8, _⟩ => ⟨S19x10, .f32⟩
  | .hbm, ⟨9, _⟩ => ⟨S19x10, .f32⟩
  | .hbm, ⟨10, _⟩ => ⟨S19x10, .f32⟩
  | .hbm, ⟨11, _⟩ => ⟨S_, .f32⟩
  | .hbm, ⟨12, _⟩ => ⟨S19x10, .f32⟩
  | .hbm, ⟨13, _⟩ => ⟨S19x10, .f32⟩
  | .hbm, ⟨14, _⟩ => ⟨S19x10, .f32⟩
  | .hbm, ⟨15, _⟩ => ⟨S_, .f32⟩
  | .hbm, ⟨16, _⟩ => ⟨S_, .f32⟩
  | .hbm, ⟨17, _⟩ => ⟨S19x10, .f32⟩
  | .hbm, ⟨18, _⟩ => ⟨S19x10, .f32⟩
  | .hbm, ⟨19, _⟩ => ⟨S19x10, .f32⟩
  | .hbm, ⟨20, _⟩ => ⟨S19x10, .f32⟩
  | .hbm, ⟨21, _⟩ => ⟨S19x10, .f32⟩
  | .hbm, ⟨22, _⟩ => ⟨S_, .f32⟩
  | .hbm, ⟨23, _⟩ => ⟨S_, .f32⟩
  | .local _ .vmem, ⟨0, _⟩ => ⟨S19x128x128, .f32⟩
  | .local _ .vmem, ⟨1, _⟩ => ⟨S19x128x128, .f32⟩
  | .local _ .vmem, ⟨2, _⟩ => ⟨S128x128, .i32⟩
  | .local _ .vmem, ⟨3, _⟩ => ⟨S128x128, .i32⟩
  | .local _ .vmem, ⟨4, _⟩ => ⟨S19x10, .f32⟩
  | .local _ .vmem, ⟨5, _⟩ => ⟨S19x10, .f32⟩
  | .local _ .vmem, ⟨6, _⟩ => ⟨S19x10, .f32⟩
  | _, _ => ⟨S1x19x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S19x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S19x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S19x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S19x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S1x19x1024x2048_S19x1024x2048 : S1x19x1024x2048.ShapeCasts S19x1024x2048
  shapeCasts_S1x1024x2048_S1024x2048 : S1x1024x2048.ShapeCasts S1024x2048
  inb_S19x10_S19x10_0_0 : ∀ a, (![0, 0] : Fin 2 → Nat) a + S19x10.size a ≤ S19x10.size a
  h_S19x10 : 0 < S19x10.numel
  inb_S19x128x128_S19x128x128_0_0_0 : ∀ a, (![0, 0, 0] : Fin 3 → Nat) a + S19x128x128.size a ≤ S19x128x128.size a
  h_S19x128x128 : 0 < S19x128x128.numel
  shapeCasts_S19x128x128_S19x128x128 : S19x128x128.ShapeCasts S19x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S19x128x128_S128x128 : S19x128x128.Reduces [0] S128x128
  shapeCasts_S128x128_S1x128x128 : S128x128.ShapeCasts S1x128x128
  broadcasts_S1x128x128_S19x128x128 : S1x128x128.Broadcasts S19x128x128
  iota_S19x128x128_d0_w32 : S19x128x128.Iotas .tc 32 [0]
  natLt_1_32 : 1 < 32
  reduces_S19x128x128_S19x128 : S19x128x128.Reduces [2] S19x128
  reduces_S19x128_S19 : S19x128.Reduces [1] S19
  inb_S19x10_S19x1_0_0 : ∀ a, (![0, 0] : Fin 2 → Nat) a + S19x1.size a ≤ S19x10.size a
  h_S19x1 : 0 < S19x1.numel
  shapeCasts_S19x1_S19 : S19x1.ShapeCasts S19
  shapeCasts_S19_S19x1 : S19.ShapeCasts S19x1
  inb_S19x10_S19x1_0_1 : ∀ a, (![0, 1] : Fin 2 → Nat) a + S19x1.size a ≤ S19x10.size a
  inb_S19x10_S19x1_0_2 : ∀ a, (![0, 2] : Fin 2 → Nat) a + S19x1.size a ≤ S19x10.size a
  inb_S19x10_S19x1_0_3 : ∀ a, (![0, 3] : Fin 2 → Nat) a + S19x1.size a ≤ S19x10.size a
  inb_S19x10_S19x1_0_4 : ∀ a, (![0, 4] : Fin 2 → Nat) a + S19x1.size a ≤ S19x10.size a
  inb_S19x10_S19x1_0_5 : ∀ a, (![0, 5] : Fin 2 → Nat) a + S19x1.size a ≤ S19x10.size a
  inb_S19x10_S19x1_0_6 : ∀ a, (![0, 6] : Fin 2 → Nat) a + S19x1.size a ≤ S19x10.size a
  inb_S19x10_S19x1_0_7 : ∀ a, (![0, 7] : Fin 2 → Nat) a + S19x1.size a ≤ S19x10.size a
  inb_S19x10_S19x1_0_8 : ∀ a, (![0, 8] : Fin 2 → Nat) a + S19x1.size a ≤ S19x10.size a
  inb_S19x10_S19x1_0_9 : ∀ a, (![0, 9] : Fin 2 → Nat) a + S19x1.size a ≤ S19x10.size a
  bcast_S_S19x10 : S_.BroadcastsInDim S19x10 (![] : Fin 0 → Fin S19x10.rank)
  reducesTo_S19x10_S_d0_1 : S19x10.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S19x128x128.size a ≤ S19x1024x2048.size a
  hwx0_0 : ∀ i : grid0.Coords, EltTy.bits .f32 = 32 ∨ (Rect.block (s := S19x1024x2048) S19x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x2048.size a
  hwx0_1 : ∀ i : grid0.Coords, EltTy.bits .i32 = 32 ∨ (Rect.block (s := S1024x2048) S128x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x10.size a ≤ S19x10.size a
  hwx0_2 : ∀ i : grid0.Coords, EltTy.bits .f32 = 32 ∨ (Rect.block (s := S19x10) S19x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x10.size a ≤ S19x10.size a
  hwx0_3 : ∀ i : grid0.Coords, EltTy.bits .f32 = 32 ∨ (Rect.block (s := S19x10) S19x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S19x10.size a ≤ S19x10.size a
  hwx0_4 : ∀ i : grid0.Coords, EltTy.bits .f32 = 32 ∨ (Rect.block (s := S19x10) S19x10.size (cc0_transform_4 i) (hinb0_4 i)).WholeWords (EltTy.packing .f32)

variable [Facts₀]

abbrev win0_0 : Pipeline.Window sig grid0 :=
  Pipeline.Window.ofSpec (Memref.whole main_v0) S19x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S19x10.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S19x10.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S19x10.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x19x1024x2048 : Shape := ⟨4, ![1, 19, 1024, 2048]⟩
abbrev S1x1024x2048 : Shape := ⟨3, ![1, 1024, 2048]⟩
abbrev S_ : Shape := ⟨0, ![]⟩
abbrev S1x1x1024x2048 : Shape := ⟨4, ![1, 1, 1024, 2048]⟩
abbrev S19 : Shape := ⟨1, ![19]⟩
abbrev S1x19x1x1 : Shape := ⟨4, ![1, 19, 1, 1]⟩
abbrev S39845888 : Shape := ⟨1, ![39845888]⟩
abbrev S191 : Shape := ⟨1, ![191]⟩
abbrev S39845888x1 : Shape := ⟨2, ![39845888, 1]⟩
abbrev S190 : Shape := ⟨1, ![190]⟩
abbrev S19x10 : Shape := ⟨2, ![19, 10]⟩

abbrev nBuf : Space → Nat
  | .hbm => 91
  | .vmem => 0
  | .smem => 0
  | _ => 0

abbrev bufTy : (tb : Table) → Fin (tcTables nBuf tb) → BufTy
  | .hbm, ⟨0, _⟩ => ⟨S1x19x1024x2048, .f32⟩
  | .hbm, ⟨1, _⟩ => ⟨S1x1024x2048, .i32⟩
  | .hbm, ⟨2, _⟩ => ⟨S_, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S1x1x1024x2048, .f32⟩
  | .hbm, ⟨8, _⟩ => ⟨S1x19x1024x2048, .f32⟩
  | .hbm, ⟨9, _⟩ => ⟨S1x19x1024x2048, .f32⟩
  | .hbm, ⟨10, _⟩ => ⟨S1x19x1024x2048, .f32⟩
  | .hbm, ⟨11, _⟩ => ⟨S_, .f32⟩
  | .hbm, ⟨12, _⟩ => ⟨S1x1024x2048, .f32⟩
  | .hbm, ⟨13, _⟩ => ⟨S1x1x1024x2048, .f32⟩
  | .hbm, ⟨14, _⟩ => ⟨S1x19x1024x2048, .f32⟩
  | .hbm, ⟨15, _⟩ => ⟨S1x19x1024x2048, .f32⟩
  | .hbm, ⟨16, _⟩ => ⟨S_, .f32⟩
  | .hbm, ⟨17, _⟩ => ⟨S1x19x1024x2048, .f32⟩
  | .hbm, ⟨18, _⟩ => ⟨S1x19x1024x2048, .f32⟩
  | .hbm, ⟨19, _⟩ => ⟨S1x19x1024x2048, .f32⟩
  | .hbm, ⟨20, _⟩ => ⟨S1x19x1024x2048, .i32⟩
  | .hbm, ⟨21, _⟩ => ⟨S_, .i32⟩
  | .hbm, ⟨22, _⟩ => ⟨S1x19x1024x2048, .i32⟩
  | .hbm, ⟨23, _⟩ => ⟨S1x19x1024x2048, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x19x1024x2048, .i32⟩
  | .hbm, ⟨28, _⟩ => ⟨S1x19x1024x2048, .i32⟩
  | .hbm, ⟨29, _⟩ => ⟨S_, .i32⟩
  | .hbm, ⟨30, _⟩ => ⟨S1x19x1024x2048, .i32⟩
  | .hbm, ⟨31, _⟩ => ⟨S1x19x1024x2048, .i32⟩
  | .hbm, ⟨32, _⟩ => ⟨S_, .f32⟩
  | .hbm, ⟨33, _⟩ => ⟨S1x19x1024x2048, .f32⟩
  | .hbm, ⟨34, _⟩ => ⟨S1x19x1024x2048, .i1⟩
  | .hbm, ⟨35, _⟩ => ⟨S19, .i32⟩
  | .hbm, ⟨36, _⟩ => ⟨S1x19x1x1, .i32⟩
  | .hbm, ⟨37, _⟩ => ⟨S_, .i32⟩
  | .hbm, ⟨38, _⟩ => ⟨S1x19x1x1, .i32⟩
  | .hbm, ⟨39, _⟩ => ⟨S1x19x1x1, .i32⟩
  | .hbm, ⟨40, _⟩ => ⟨S1x19x1024x2048, .i32⟩
  | .hbm, ⟨41, _⟩ => ⟨S1x19x1024x2048, .i32⟩
  | .hbm, ⟨42, _⟩ => ⟨S_, .i32⟩
  | .hbm, ⟨43, _⟩ => ⟨S_, .i32⟩
  | .hbm, ⟨44, _⟩ => ⟨S1x19x1024x2048, .i32⟩
  | .hbm, ⟨45, _⟩ => ⟨S1x19x1024x2048, .i32⟩
  | .hbm, ⟨46, _⟩ => ⟨S39845888, .i32⟩
  | .hbm, ⟨47, _⟩ => ⟨S39845888, .f32⟩
  | .hbm, ⟨48, _⟩ => ⟨S_, .f32⟩
  | .hbm, ⟨49, _⟩ => ⟨S191, .f32⟩
  | .hbm, ⟨50, _⟩ => ⟨S39845888x1, .i32⟩
  | .hbm, ⟨51, _⟩ => ⟨S191, .f32⟩
  | .hbm, ⟨52, _⟩ => ⟨S190, .f32⟩
  | .hbm, ⟨53, _⟩ => ⟨S19x10, .f32⟩
  | .hbm, ⟨54, _⟩ => ⟨S_, .f32⟩
  | .hbm, ⟨55, _⟩ => ⟨S39845888, .f32⟩
  | .hbm, ⟨56, _⟩ => ⟨S_, .f32⟩
  | .hbm, ⟨57, _⟩ => ⟨S191, .f32⟩
  | .hbm, ⟨58, _⟩ => ⟨S39845888x1, .i32⟩
  | .hbm, ⟨59, _⟩ => ⟨S191, .f32⟩
  | .hbm, ⟨60, _⟩ => ⟨S190, .f32⟩
  | .hbm, ⟨61, _⟩ => ⟨S19x10, .f32⟩
  | .hbm, ⟨62, _⟩ => ⟨S1x1x1024x2048, .i32⟩
  | .hbm, ⟨63, _⟩ => ⟨S1x19x1024x2048, .i32⟩
  | .hbm, ⟨64, _⟩ => ⟨S1x19x1024x2048, .i32⟩
  | .hbm, ⟨65, _⟩ => ⟨S1x19x1024x2048, .i1⟩
  | .hbm, ⟨66, _⟩ => ⟨S1x19x1024x2048, .f32⟩
  | .hbm, ⟨67, _⟩ => ⟨S39845888, .f32⟩
  | .hbm, ⟨68, _⟩ => ⟨S_, .f32⟩
  | .hbm, ⟨69, _⟩ => ⟨S191, .f32⟩
  | .hbm, ⟨70, _⟩ => ⟨S39845888x1, .i32⟩
  | .hbm, ⟨71, _⟩ => ⟨S191, .f32⟩
  | .hbm, ⟨72, _⟩ => ⟨S190, .f32⟩
  | .hbm, ⟨73, _⟩ => ⟨S19x10, .f32⟩
  | .hbm, ⟨74, _⟩ => ⟨S_, .f32⟩
  | .hbm, ⟨75, _⟩ => ⟨S19x10, .f32⟩
  | .hbm, ⟨76, _⟩ => ⟨S19x10, .f32⟩
  | .hbm, ⟨77, _⟩ => ⟨S19x10, .f32⟩
  | .hbm, ⟨78, _⟩ => ⟨S_, .f32⟩
  | .hbm, ⟨79, _⟩ => ⟨S19x10, .f32⟩
  | .hbm, ⟨80, _⟩ => ⟨S19x10, .f32⟩
  | .hbm, ⟨81, _⟩ => ⟨S19x10, .f32⟩
  | .hbm, ⟨82, _⟩ => ⟨S19x10, .f32⟩
  | .hbm, ⟨83, _⟩ => ⟨S19x10, .f32⟩
  | .hbm, ⟨84, _⟩ => ⟨S_, .f32⟩
  | .hbm, ⟨85, _⟩ => ⟨S_, .f32⟩
  | .hbm, ⟨86, _⟩ => ⟨S19x10, .f32⟩
  | .hbm, ⟨87, _⟩ => ⟨S19x10, .f32⟩
  | .hbm, ⟨88, _⟩ => ⟨S19x10, .f32⟩
  | .hbm, ⟨89, _⟩ => ⟨S_, .f32⟩
  | .hbm, ⟨90, _⟩ => ⟨S_, .f32⟩
  | _, _ => ⟨S1x19x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  reducesTo_S1x19x1024x2048_S1x1024x2048_d1 : S1x19x1024x2048.ReducesTo [1] S1x1024x2048
  h_S_ : 0 < S_.numel
  bcast_S_S1x1024x2048 : S_.BroadcastsInDim S1x1024x2048 (![] : Fin 0 → Fin S1x1024x2048.rank)
  bcast_S1x1024x2048_S1x1x1024x2048_0_2_3 : S1x1024x2048.BroadcastsInDim S1x1x1024x2048 (![0, 2, 3] : Fin 3 → Fin S1x1x1024x2048.rank)
  bcast_S1x1x1024x2048_S1x19x1024x2048_0_1_2_3 : S1x1x1024x2048.BroadcastsInDim S1x19x1024x2048 (![0, 1, 2, 3] : Fin 4 → Fin S1x19x1024x2048.rank)
  bcast_S_S1x19x1024x2048 : S_.BroadcastsInDim S1x19x1024x2048 (![] : Fin 0 → Fin S1x19x1024x2048.rank)
  bcast_S19_S1x19x1x1_1 : S19.BroadcastsInDim S1x19x1x1 (![1] : Fin 1 → Fin S1x19x1x1.rank)
  bcast_S_S1x19x1x1 : S_.BroadcastsInDim S1x19x1x1 (![] : Fin 0 → Fin S1x19x1x1.rank)
  bcast_S1x19x1x1_S1x19x1024x2048_0_1_2_3 : S1x19x1x1.BroadcastsInDim S1x19x1024x2048 (![0, 1, 2, 3] : Fin 4 → Fin S1x19x1024x2048.rank)
  shapeCasts_S1x19x1024x2048_S39845888 : S1x19x1024x2048.ShapeCasts S39845888
  bcast_S_S191 : S_.BroadcastsInDim S191 (![] : Fin 0 → Fin S191.rank)
  bcast_S39845888_S39845888x1_0 : S39845888.BroadcastsInDim S39845888x1 (![0] : Fin 1 → Fin S39845888x1.rank)
  slices_S191_S190_0 : S191.Slices ![0] S190
  shapeCasts_S190_S19x10 : S190.ShapeCasts S19x10
  bcast_S_S39845888 : S_.BroadcastsInDim S39845888 (![] : Fin 0 → Fin S39845888.rank)
  bcast_S_S19x10 : S_.BroadcastsInDim S19x10 (![] : Fin 0 → Fin S19x10.rank)
  reducesTo_S19x10_S_d0_1 : S19x10.ReducesTo [0, 1] S_
  scatter_S191_S39845888x1_S39845888_n_0_0_1_wf : ScatterDims.WF S191 S39845888x1 S39845888 [] [0] [0] 1

variable [Facts₀]

def scatter_S191_S39845888x1_S39845888_n_0_0_1 : ScatterDims S191 S39845888x1 S39845888 where
  updateWindowDims := []
  insertedWindowDims := [0]
  scatterDimsToOperandDims := [0]
  indexVectorDim := 1
  wf := scatter_S191_S39845888x1_S39845888_n_0_0_1_wf

class Facts : Prop extends Facts₀ where

variable [Facts]
-- ==== Proof.Pixel.lean ====
/-
  The calibration histogram, as mathematics over the extended reals.

  One pixel (h, w) carries a column of 19 logits and a label. Its softmax probabilities are
  p_k = exp(x_k - M) / (sum over j of exp(x_j - M)), M the largest logit of the column; class k of the pixel falls in
  bin b when p_k > 0 and clip(ceil(10 p_k) - 1, 0, 9) = b. The three histograms, indexed by (class k, bin b), sum over
  the pixels: the probability p_k (confidence), the count 1, and the indicator that the label is k (accuracy), each
  over the pixels whose class k falls in bin b. The loss is a fixed function of the three histograms.

  Everything is stated through the scalar operations the two programs apply at each index, so that either program's
  arrays read at an index are these terms.
-/
import Idealize.ShloMosaic.Lib.ValueIdx
import Idealize.ShloMosaic.PureOps.Ideal.Laws

noncomputable section

namespace Cert.Hist

open Idealize.ShloMosaic Idealize.ShloMosaic.ValueIdx

/-- The logits [1, 19, 1024, 2048], the labels [1, 1024, 2048], a histogram [19, 10], a scalar. -/
abbrev A4 : Shape := ⟨4, ![1, 19, 1024, 2048]⟩
abbrev L3 : Shape := ⟨3, ![1, 1024, 2048]⟩
abbrev H2 : Shape := ⟨2, ![19, 10]⟩
abbrev Sc : Shape := ⟨0, ![]⟩

/-! ## One pixel -/

/-- The largest logit of a column: the fold of max from minus infinity. -/
def colMax (col : Fin 19 → EReal) : EReal :=
  (Finset.univ : Finset (Fin 19)).fold max (Ideal.ofBits .f32 0xFF800000#32) col

/-- exp(x_k - M). -/
def colExp (col : Fin 19 → EReal) (k : Fin 19) : EReal := Ideal.exp (col k - colMax col)

/-- The softmax denominator. -/
def colSum (col : Fin 19 → EReal) : EReal := ∑ j : Fin 19, colExp col j

/-- The softmax probability of class k. -/
def prob (col : Fin 19 → EReal) (k : Fin 19) : EReal := Ideal.div (colExp col k) (colSum col)

/-- The bin of class k: clip(ceil(10 p_k) - 1, 0, 9), as a signed 32-bit word. -/
def binOf (col : Fin 19 → EReal) (k : Fin 19) : BitVec 32 :=
  IntOp.minsi 9#32 (IntOp.maxsi 0#32
    (IntOp.subi (Ideal.fptosi 32 (Ideal.liftRound Int.ceil (prob col k * Ideal.ofBits .f32 0x41200000#32))) 1#32))

/-- p_k > 0, as a bit. -/
def validOf (col : Fin 19 → EReal) (k : Fin 19) : BitVec 1 :=
  Ideal.cmp .ogt (prob col k) (Ideal.ofBits .f32 0x00000000#32)

/-- Class k of the pixel falls in bin b, as a bit. -/
def hit (col : Fin 19 → EReal) (k : Fin 19) (b : BitVec 32) : BitVec 1 :=
  IntOp.andi (validOf col k) (IntOp.cmpi .eq (binOf col k) b)

/-- The same as 0 or 1 in the extended reals (the bit widened to 32 bits, read signed). -/
def maskOf (col : Fin 19 → EReal) (k : Fin 19) (b : BitVec 32) : EReal :=
  ((((hit col k b).setWidth 32).toInt : ℝ) : EReal)

/-- The label is k, as 0 or 1. -/
def correctOf (t : BitVec 32) (k : Fin 19) : EReal :=
  ((((IntOp.cmpi .eq t (BitVec.ofNat 32 k.val)).setWidth 32).toInt : ℝ) : EReal)

/-- What the pixel adds to the three histograms at (k, b). -/
def confAdd (col : Fin 19 → EReal) (k : Fin 19) (b : BitVec 32) : EReal := prob col k * maskOf col k b
def predAdd (col : Fin 19 → EReal) (k : Fin 19) (b : BitVec 32) : EReal := maskOf col k b
def accAdd (col : Fin 19 → EReal) (t : BitVec 32) (k : Fin 19) (b : BitVec 32) : EReal :=
  correctOf t k * maskOf col k b

/-! ## The histograms over the whole arrays -/

/-- The column of pixel (h, w). -/
def colAt (X : A4.Idx → EReal) (h : Fin 1024) (w : Fin 2048) : Fin 19 → EReal := fun k => X (ix4 0 k h w)

/-- The bin b as a word. -/
abbrev binWord (j : H2.Idx) : BitVec 32 := BitVec.ofNat 32 (j 1).val

def confH (X : A4.Idx → EReal) : H2.Idx → EReal := fun j =>
  ∑ h : Fin 1024, ∑ w : Fin 2048, confAdd (colAt X h w) (j 0) (binWord j)

def predH (X : A4.Idx → EReal) : H2.Idx → EReal := fun j =>
  ∑ h : Fin 1024, ∑ w : Fin 2048, predAdd (colAt X h w) (j 0) (binWord j)

def accH (X : A4.Idx → EReal) (T : L3.Idx → BitVec 32) : H2.Idx → EReal := fun j =>
  ∑ h : Fin 1024, ∑ w : Fin 2048, accAdd (colAt X h w) (T (ix3 0 h w)) (j 0) (binWord j)

/-! ## The loss -/

/-- sum over (k, b) of (acc / (pred + eps) - conf / (pred + eps))^2 * (pred / sum pred), spelt with the host
    operations both programs end with (eps the f32 nearest 1e-13). -/
def loss (hb : Sc.BroadcastsInDim H2 (![] : Fin 0 → Fin H2.rank)) (hr : H2.ReducesTo [0, 1] Sc) (h0 : 0 < Sc.numel)
    (conf pred acc : FVec Ideal H2 .f32) : FVec Ideal Sc .f32 :=
  Host.reduceAdd
    (mulf
      (mulf
        (subf (Host.divf acc (addf pred (broadcastInDim H2 ![] hb (constant Sc .f32 0x29E12E13#32))))
          (Host.divf conf (addf pred (broadcastInDim H2 ![] hb (constant Sc .f32 0x29E12E13#32)))))
        (subf (Host.divf acc (addf pred (broadcastInDim H2 ![] hb (constant Sc .f32 0x29E12E13#32))))
          (Host.divf conf (addf pred (broadcastInDim H2 ![] hb (constant Sc .f32 0x29E12E13#32))))))
      (Host.divf pred (broadcastInDim H2 ![] hb (Host.reduceAdd pred (constant Sc .f32 0x00000000#32) hr h0))))
    (constant Sc .f32 0x00000000#32) hr h0

end Cert.Hist

end
-- ==== Proof.KTile.lean ====
/-
  One tile of the kernel's grid: a [19, 128, 128] block of logits and a [128, 128] block of labels. What the tile adds
  to each of the three histograms at (class k, bin b) is the sum over its 128 x 128 pixels of the pixel's addend.
-/
import proofs.«153688_j19292993094305_1_alg».proof.Proof.Gen.KernelIdeal.Frame
import proofs.«153688_j19292993094305_1_alg».proof.Proof.Pixel

set_option maxRecDepth 16384

noncomputable section

namespace Cert.Hist.K

open Idealize.ShloMosaic Idealize.ShloMosaic.ValueIdx Cert.KernelIdeal Cert.Hist

/-- The column of logits of the tile's pixel (y, x). -/
def tcol (x0 : Vec Ideal S19x128x128 .f32) (y x : Fin 128) : Fin 19 → EReal := fun k => x0 (ix3 k y x)

/-- The tile's addend to the confidence histogram. -/
def tileConf (x0 : Vec Ideal S19x128x128 .f32) : Vec Ideal S19x10 .f32 := fun j =>
  ∑ y : Fin 128, ∑ x : Fin 128, confAdd (tcol x0 y x) (j 0) (binWord j)

/-- The tile's addend to the count histogram. -/
def tilePred (x0 : Vec Ideal S19x128x128 .f32) : Vec Ideal S19x10 .f32 := fun j =>
  ∑ y : Fin 128, ∑ x : Fin 128, predAdd (tcol x0 y x) (j 0) (binWord j)

/-- The tile's addend to the accuracy histogram. -/
def tileAcc (x0 : Vec Ideal S19x128x128 .f32) (x1 : Vec Ideal S128x128 .i32) : Vec Ideal S19x10 .f32 := fun j =>
  ∑ y : Fin 128, ∑ x : Fin 128, accAdd (tcol x0 y x) (x1 (ix2 y x)) (j 0) (binWord j)

end Cert.Hist.K

end
-- ==== Proof.KPix.lean ====
/-
  The kernel body's values at one pixel of a tile, and one column update, at the extended reals.
-/
import proofs.«153688_j19292993094305_1_alg».proof.Proof.KTile
import Idealize.ShloMosaic.Lib.Pipeline.Value
import Idealize.ShloMosaic.Lib.ValueLayout

set_option maxRecDepth 16384

noncomputable section

namespace Cert.Hist.K

open Idealize.ShloMosaic Idealize.ShloMosaic.ValueIdx Cert.KernelIdeal Cert.KernelIdeal.Gen Cert.Hist

/-- The index with coordinate k inserted on the class axis of (y, x) is (k, y, x). -/
theorem lift0 (h : S19x128x128.Reduces [0] S128x128) (y x : Fin 128) (k : Fin 19) :
    h.lift (ix2 y x) k = ix3 k y x := by
  funext a
  match a with
  | ⟨0, _⟩ => exact Fin.ext rfl
  | ⟨1, _⟩ => exact Fin.ext rfl
  | ⟨2, _⟩ => exact Fin.ext rfl

/-- The maximum over the class axis at (y, x) is the column's maximum. -/
theorem max0_apply (v : FVec Ideal S19x128x128 .f32) (y x : Fin 128) :
    multiReduction .maximumf [0] S128x128 v 0xFF800000#32 reduces_S19x128x128_S128x128 (.inl rfl) rfl (ix2 y x)
      = colMax (tcol v y x) := by
  refine (Ideal.multiReduction_maximumf_single v 0xFF800000#32 reduces_S19x128x128_S128x128 _ _ (ix2 y x)).trans ?_
  have e : (fun k : Fin 19 => v (reduces_S19x128x128_S128x128.lift (ix2 y x) k)) = tcol v y x :=
    funext fun k => congrArg v (lift0 _ y x k)
  exact congrArg (fun f : Fin 19 → EReal => Finset.fold max (Ideal.ofBits .f32 0xFF800000#32) f Finset.univ) e

/-- The sum over the class axis at (y, x) is the sum over the column. -/
theorem sum0_apply (v : FVec Ideal S19x128x128 .f32) (y x : Fin 128) :
    multiReduction .add [0] S128x128 v 0x00000000#32 reduces_S19x128x128_S128x128 (.inl rfl) rfl (ix2 y x)
      = ∑ j : Fin 19, v (ix3 j y x) := by
  refine (Ideal.multiReduction_add_single v 0x00000000#32 reduces_S19x128x128_S128x128 _ _ (ix2 y x)).trans ?_
  exact Finset.sum_congr rfl fun k _ => congrArg v (lift0 _ y x k)

/-- A [128, 128] array given a unit class axis and broadcast over the 19 classes reads (y, x) at (k, y, x). -/
theorem bc_apply {α : Type} (w : S128x128.Idx → α) (k : Fin 19) (y x : Fin 128) :
    broadcastTo S19x128x128 (shapeCast S1x128x128 w shapeCasts_S128x128_S1x128x128) broadcasts_S1x128x128_S19x128x128 (ix3 k y x)
      = w (ix2 y x) := by
  refine (broadcastTo_apply _ _ (ix3 k y x) (ix3 (0 : Fin 1) y x) fun a => ?_).trans ?_
  · match a with
    | ⟨0, _⟩ => rfl
    | ⟨1, _⟩ => rfl
    | ⟨2, _⟩ => rfl
  · exact shapeCast_ab_1ab_apply w _ 0 y x

/-- exp(x - max) of the tile at (j, y, x) is the column's shifted exponential. -/
theorem expv_apply (v : FVec Ideal S19x128x128 .f32) (j : Fin 19) (y x : Fin 128) :
    (exp (subf v (broadcastTo S19x128x128
        (shapeCast S1x128x128
          (multiReduction .maximumf [0] S128x128 v 0xFF800000#32 reduces_S19x128x128_S128x128 (.inl rfl) rfl)
          shapeCasts_S128x128_S1x128x128)
        broadcasts_S1x128x128_S19x128x128)) : FVec Ideal S19x128x128 .f32) (ix3 j y x)
      = colExp (tcol v y x) j := by
  refine congrArg Ideal.exp (congrArg (fun m => v (ix3 j y x) - m) ?_)
  exact (bc_apply _ j y x).trans (max0_apply v y x)

/-- The softmax of a tile over its class axis, read at (k, y, x). -/
theorem softmax_apply (v : FVec Ideal S19x128x128 .f32) (k : Fin 19) (y x : Fin 128) :
    divf
      (exp (subf v (broadcastTo S19x128x128
        (shapeCast S1x128x128
          (multiReduction .maximumf [0] S128x128 v 0xFF800000#32 reduces_S19x128x128_S128x128 (.inl rfl) rfl)
          shapeCasts_S128x128_S1x128x128)
        broadcasts_S1x128x128_S19x128x128)))
      (broadcastTo S19x128x128
        (shapeCast S1x128x128
          (multiReduction .add [0] S128x128
            (exp (subf v (broadcastTo S19x128x128
              (shapeCast S1x128x128
                (multiReduction .maximumf [0] S128x128 v 0xFF800000#32 reduces_S19x128x128_S128x128 (.inl rfl) rfl)
                shapeCasts_S128x128_S1x128x128)
              broadcasts_S1x128x128_S19x128x128)))
            0x00000000#32 reduces_S19x128x128_S128x128 (.inl rfl) rfl)
          shapeCasts_S128x128_S1x128x128)
        broadcasts_S1x128x128_S19x128x128)
      (ix3 k y x)
      = prob (tcol v y x) k := by
  refine (divf_apply _ _ _).trans ?_
  unfold prob colSum
  refine congrArg₂ Ideal.div (expv_apply v k y x) ?_
  refine (bc_apply _ k y x).trans ((sum0_apply _ y x).trans ?_)
  exact Finset.sum_congr rfl fun j _ => expv_apply v j y x

/-- The body's softmax of the tile at (k, y, x) is the pixel's probability of class k. -/
theorem prob_apply (x0 : Vec Ideal S19x128x128 .f32) (k : Fin 19) (y x : Fin 128) :
    k0_pay7 (F := Ideal) x0 (ix3 k y x) = prob (tcol x0 y x) k := by
  unfold k0_pay7
  have hs : shapeCast S19x128x128 x0 shapeCasts_S19x128x128_S19x128x128 = x0 := shapeCast_self x0 _
  rw [hs]
  exact softmax_apply x0 k y x

/-- The body's bin index at (k, y, x). -/
theorem bin_apply (x0 : Vec Ideal S19x128x128 .f32) (k : Fin 19) (y x : Fin 128) :
    k0_pay8 (F := Ideal) x0 (ix3 k y x) = binOf (tcol x0 y x) k := by
  unfold k0_pay8 binOf
  exact congrArg (fun p : EReal => IntOp.minsi 9#32 (IntOp.maxsi 0#32
    (IntOp.subi (Ideal.fptosi 32 (Ideal.liftRound Int.ceil (p * Ideal.ofBits .f32 0x41200000#32))) 1#32)))
    (prob_apply x0 k y x)

/-- The body's positivity bit at (k, y, x). -/
theorem valid_apply (x0 : Vec Ideal S19x128x128 .f32) (k : Fin 19) (y x : Fin 128) :
    k0_pay9 (F := Ideal) x0 (ix3 k y x) = validOf (tcol x0 y x) k := by
  unfold k0_pay9 validOf
  exact congrArg (fun p : EReal => Ideal.cmp .ogt p (Ideal.ofBits .f32 0x00000000#32)) (prob_apply x0 k y x)

/-- The body's label match at (k, y, x). -/
theorem correct_apply (x1 : Vec Ideal S128x128 .i32) (k : Fin 19) (y x : Fin 128) :
    k0_pay10 (F := Ideal) x1 (ix3 k y x) = correctOf (x1 (ix2 y x)) k := by
  unfold k0_pay10 correctOf
  have hs : shapeCast S128x128 x1 shapeCasts_S128x128_S128x128 = x1 := shapeCast_self x1 _
  rw [hs]
  exact congrArg₂ (fun a b : BitVec 32 => ((((IntOp.cmpi .eq a b).setWidth 32).toInt : ℝ) : EReal))
    (bc_apply x1 k y x) (iota_single_apply .tc S19x128x128 32 0 iota_S19x128x128_d0_w32 (ix3 k y x))

/-- The mask of bin b over a tile, in the body's spelling: valid and (bin = b), widened and converted. -/
def maskVec (bin : IVec S19x128x128 32) (valid : IVec S19x128x128 1) (b : BitVec 32) : FVec Ideal S19x128x128 .f32 :=
  sitofp .f32 (extui 32 (andi valid (cmpi .eq bin (broadcast S19x128x128 b))) natLt_1_32)

/-- At (k, y, x) it is the pixel's mask. -/
theorem maskVec_apply (x0 : Vec Ideal S19x128x128 .f32) (b : BitVec 32) (k : Fin 19) (y x : Fin 128) :
    maskVec (k0_pay8 (F := Ideal) x0) (k0_pay9 (F := Ideal) x0) b (ix3 k y x) = maskOf (tcol x0 y x) k b := by
  unfold maskVec maskOf hit
  exact congrArg₂ (fun (v : BitVec 1) (n : BitVec 32) =>
      ((((IntOp.andi v (IntOp.cmpi .eq n b)).setWidth 32).toInt : ℝ) : EReal))
    (valid_apply x0 k y x) (bin_apply x0 k y x)

/-- A [19] array viewed as a [19, 1] column reads k at (k, u). -/
theorem cast_col_apply {α : Type} (w : S19.Idx → α) (k : Fin 19) (u : Fin 1) :
    shapeCast S19x1 w shapeCasts_S19_S19x1 (ix2 k u) = w (ix1 k) :=
  shapeCast_apply w _ _ _ (by
    have hu : u.val = 0 := by omega
    rw [Shape.rowMajor_val_one, Shape.rowMajor_val_two]
    show k.val = k.val * 1 + u.val
    rw [hu, Nat.mul_one, Nat.add_zero])

/-- A [19, 1] column viewed as a [19] array reads (k, 0) at k. -/
theorem cast_row_apply {α : Type} (w : S19x1.Idx → α) (k : Fin 19) :
    shapeCast S19 w shapeCasts_S19x1_S19 (ix1 k) = w (ix2 k (0 : Fin 1)) :=
  shapeCast_apply w _ _ _ (by
    rw [Shape.rowMajor_val_two, Shape.rowMajor_val_one]
    show k.val * 1 + 0 = k.val
    rw [Nat.mul_one, Nat.add_zero])

/-- The index with coordinate y inserted on axis 1 of (k) is (k, y). -/
theorem lift1 (h : S19x128.Reduces [1] S19) (k : Fin 19) (y : Fin 128) : h.lift (ix1 k) y = ix2 k y := by
  funext a
  match a with
  | ⟨0, _⟩ => exact Fin.ext rfl
  | ⟨1, _⟩ => exact Fin.ext rfl

/-- The index with coordinate x inserted on axis 2 of (k, y) is (k, y, x). -/
theorem lift2 (h : S19x128x128.Reduces [2] S19x128) (k : Fin 19) (y x : Fin 128) : h.lift (ix2 k y) x = ix3 k y x := by
  funext a
  match a with
  | ⟨0, _⟩ => exact Fin.ext rfl
  | ⟨1, _⟩ => exact Fin.ext rfl
  | ⟨2, _⟩ => exact Fin.ext rfl

/-- The sum over axis 1 of a [19, 128] array at k. -/
theorem sum1_apply (w : FVec Ideal S19x128 .f32) (k : Fin 19) :
    multiReduction .add [1] S19 w 0x00000000#32 reduces_S19x128_S19 (.inl rfl) rfl (ix1 k)
      = ∑ y : Fin 128, w (ix2 k y) := by
  refine (Ideal.multiReduction_add_single w 0x00000000#32 reduces_S19x128_S19 _ _ (ix1 k)).trans ?_
  exact Finset.sum_congr rfl fun y _ => congrArg w (lift1 _ k y)

/-- The sum over axis 2 of a [19, 128, 128] array at (k, y). -/
theorem sum2_apply (v : FVec Ideal S19x128x128 .f32) (k : Fin 19) (y : Fin 128) :
    multiReduction .add [2] S19x128 v 0x00000000#32 reduces_S19x128x128_S19x128 (.inl rfl) rfl (ix2 k y)
      = ∑ x : Fin 128, v (ix3 k y x) := by
  refine (Ideal.multiReduction_add_single v 0x00000000#32 reduces_S19x128x128_S19x128 _ _ (ix2 k y)).trans ?_
  exact Finset.sum_congr rfl fun x _ => congrArg v (lift2 _ k y x)

/-- One column update, in the body's spelling: the old column plus the tile's sum over its two pixel axes. -/
def colUpd (old : Vec Ideal S19x1 .f32) (v : FVec Ideal S19x128x128 .f32) : FVec Ideal S19x1 .f32 :=
  shapeCast S19x1
    (addf (shapeCast S19 old shapeCasts_S19x1_S19)
      (multiReduction .add [1] S19
        (multiReduction .add [2] S19x128 v 0x00000000#32 reduces_S19x128x128_S19x128 (.inl rfl) rfl)
        0x00000000#32 reduces_S19x128_S19 (.inl rfl) rfl))
    shapeCasts_S19_S19x1

/-- At row k: the old entry plus the double sum. -/
theorem colUpd_apply (old : Vec Ideal S19x1 .f32) (v : FVec Ideal S19x128x128 .f32) (j : S19x1.Idx) :
    colUpd old v j = old j + ∑ y : Fin 128, ∑ x : Fin 128, v (ix3 (j 0) y x) := by
  obtain ⟨k, u, rfl⟩ : ∃ (k : Fin 19) (u : Fin 1), j = ix2 k u := ⟨j 0, j 1, eq_ix2 j⟩
  obtain rfl : u = 0 := Subsingleton.elim _ _
  unfold colUpd
  refine (cast_col_apply _ k 0).trans ?_
  refine (addf_apply _ _ _).trans ?_
  refine congrArg₂ (· + ·) (cast_row_apply old k) ?_
  refine (sum1_apply _ k).trans ?_
  exact Finset.sum_congr rfl fun y _ => sum2_apply v k y

end Cert.Hist.K

end
-- ==== Proof.KPiece2.lean ====
/-
  What the kernel body leaves in the confidence histogram's block at one grid point: at the first point (the block is
  zeroed, then each of its ten columns is read back, added to and stored) the tile's addend; at any later point the
  block as the point before left it plus the tile's addend.

  Each of the ten column stores writes, whatever way the body's text is cut, the same thing: the column as it was read
  plus the sum over the tile's 128 x 128 pixels of probability times the 0/1 mask of bin b. The ten stores are to
  ten different columns, so a column read back at the first point still holds the zero the block was filled with.
-/
import proofs.«153688_j19292993094305_1_alg».proof.Proof.KPix
import Idealize.ShloMosaic.Lib.Pipeline.CanonAppend
import Idealize.ShloMosaic.Lib.Tactic

set_option maxRecDepth 16384

noncomputable section

namespace Cert.Hist.K

open Idealize.ShloMosaic Idealize.ShloMosaic.TcCoe Idealize.ShloMosaic.Tactic Idealize.ShloMosaic.ValueIdx Idealize.SL.Sem
open Cert.KernelIdeal Cert.KernelIdeal.Gen Cert.Hist

private theorem conf_hz3 : (![0, 0, 0] : Fin 3 → ℕ) = fun _ => 0 := funext fun a => by fin_cases a <;> rfl

/-- One column update of the confidence histogram in uniform spelling: the old column plus the tile's sum of
    probability times the mask of bin b. -/
private def confCol (p : FVec Ideal S19x128x128 .f32) (bin : IVec S19x128x128 32) (valid : IVec S19x128x128 1)
    (old : Vec Ideal S19x1 .f32) (b : BitVec 32) : FVec Ideal S19x1 .f32 :=
  colUpd old (mulf p (maskVec bin valid b))

private theorem confCol_apply (x0 : Vec Ideal S19x128x128 .f32) (old : Vec Ideal S19x1 .f32) (b : BitVec 32) (j : S19x1.Idx) :
    confCol (k0_pay7 (F := Ideal) x0) (k0_pay8 (F := Ideal) x0) (k0_pay9 (F := Ideal) x0) old b j
      = old j + ∑ y : Fin 128, ∑ x : Fin 128, confAdd (tcol x0 y x) (j 0) b := by
  unfold confCol
  rw [colUpd_apply]
  congr 1
  refine Finset.sum_congr rfl fun y _ => Finset.sum_congr rfl fun x _ => ?_
  exact congrArg₂ (fun a m : EReal => a * m) (prob_apply x0 (j 0) y x) (maskVec_apply x0 b (j 0) y x)

private theorem conf_pay0 (p : FVec Ideal S19x128x128 .f32) (x0 : Vec Ideal S19x128x128 .f32) (old : Vec Ideal S19x1 .f32) :
    k0_pay12 (F := Ideal) p (k0_pay11 (F := Ideal) x0) old = confCol p (k0_pay8 (F := Ideal) x0) (k0_pay9 (F := Ideal) x0) old 0#32 := rfl
private theorem conf_pay1 (p : FVec Ideal S19x128x128 .f32) (bin : IVec S19x128x128 32) (valid : IVec S19x128x128 1) (old : Vec Ideal S19x1 .f32) :
    k0_pay18 (F := Ideal) (k0_pay16 (F := Ideal) p bin valid) old = confCol p bin valid old 1#32 := rfl
private theorem conf_pay2 (p : FVec Ideal S19x128x128 .f32) (bin : IVec S19x128x128 32) (valid : IVec S19x128x128 1) (old : Vec Ideal S19x1 .f32) :
    k0_pay25 (F := Ideal) (k0_pay22 (F := Ideal) p bin valid) old = confCol p bin valid old 2#32 := rfl
private theorem conf_pay3 (p : FVec Ideal S19x128x128 .f32) (bin : IVec S19x128x128 32) (valid : IVec S19x128x128 1) (old : Vec Ideal S19x1 .f32) :
    k0_pay32 (F := Ideal) (k0_pay31 (F := Ideal) p bin valid old) = confCol p bin valid old 3#32 := rfl
private theorem conf_pay4 (p : FVec Ideal S19x128x128 .f32) (bin : IVec S19x128x128 32) (valid : IVec S19x128x128 1) (old : Vec Ideal S19x1 .f32) :
    k0_pay38 (F := Ideal) p bin valid old = confCol p bin valid old 4#32 := rfl
private theorem conf_pay5 (p : FVec Ideal S19x128x128 .f32) (bin : IVec S19x128x128 32) (valid : IVec S19x128x128 1) (old : Vec Ideal S19x1 .f32) :
    k0_pay43 (F := Ideal) p bin valid old = confCol p bin valid old 5#32 := rfl
private theorem conf_pay6 (p : FVec Ideal S19x128x128 .f32) (bin : IVec S19x128x128 32) (valid : IVec S19x128x128 1) (old : Vec Ideal S19x1 .f32) :
    k0_pay47 (F := Ideal) p bin valid old = confCol p bin valid old 6#32 := rfl
private theorem conf_pay7 (p : FVec Ideal S19x128x128 .f32) (bin : IVec S19x128x128 32) (valid : IVec S19x128x128 1) (old : Vec Ideal S19x1 .f32) :
    k0_pay52 (F := Ideal) p bin valid old = confCol p bin valid old 7#32 := rfl
private theorem conf_pay8 (p : FVec Ideal S19x128x128 .f32) (bin : IVec S19x128x128 32) (valid : IVec S19x128x128 1) (old : Vec Ideal S19x1 .f32) :
    k0_pay57 (F := Ideal) p bin valid k0_pay55 old = confCol p bin valid old 8#32 := rfl
private theorem conf_pay9 (p : FVec Ideal S19x128x128 .f32) (bin : IVec S19x128x128 32) (valid : IVec S19x128x128 1) (old : Vec Ideal S19x1 .f32) :
    k0_pay1 (F := Ideal) (k0_pay61 (F := Ideal) p bin valid) old = confCol p bin valid old 9#32 := rfl

/-- The column-b store's payload, in uniform spelling, is the block's target at the place the store's row names. -/
private theorem conf_piece (x0 : Vec Ideal S19x128x128 .f32) (xo2 : Vec Ideal S19x10 .f32) (b : ℕ)
    (inb : ∀ a, (![0, b] : Fin 2 → ℕ) a + (![19, 1] : Fin 2 → ℕ) a ≤ S19x10.size a) (x : S19x1.Idx) :
    confCol (k0_pay7 (F := Ideal) x0) (k0_pay8 (F := Ideal) x0) (k0_pay9 (F := Ideal) x0)
        (View.ld xo2 (Rect.unit (s := S19x10) ![0, b] ![19, 1] inb)) (BitVec.ofNat 32 b) x
      = xo2 ((Rect.unit (s := S19x10) ![0, b] ![19, 1] inb).emb x)
        + tileConf x0 ((Rect.unit (s := S19x10) ![0, b] ![19, 1] inb).emb x) := by
  rw [confCol_apply]
  have e0 : (Rect.unit (s := S19x10) ![0, b] ![19, 1] inb).emb x 0 = x 0 :=
    Fin.ext (by show 0 + 1 * (x 0).val = (x 0).val; omega)
  have e1 : ((Rect.unit (s := S19x10) ![0, b] ![19, 1] inb).emb x 1).val = b := by
    have h1 : (x 1).val < 1 := (x 1).isLt
    show b + 1 * (x 1).val = b
    omega
  unfold tileConf
  show _ + _ = _ + ∑ y : Fin 128, ∑ x' : Fin 128, confAdd (tcol x0 y x') ((Rect.unit (s := S19x10) ![0, b] ![19, 1] inb).emb x 0)
    (BitVec.ofNat 32 ((Rect.unit (s := S19x10) ![0, b] ![19, 1] inb).emb x 1).val)
  rw [e0, e1]
  rfl

private theorem conf_hz2 : (![0, 0] : Fin 2 → ℕ) = fun _ => 0 := funext fun a => by fin_cases a <;> rfl

/-- Through any column, what the zeroing store alone leaves reads zero. -/
private theorem conf_readCov_zero (arg4 : Memref sig .tc .vmem S19x10 .f32) (inb0 : ∀ a, (![0, 0] : Fin 2 → ℕ) a + (![19, 10] : Fin 2 → ℕ) a ≤ S19x10.size a)
    (b : ℕ) (inb : ∀ a, (![0, b] : Fin 2 → ℕ) a + (![19, 1] : Fin 2 → ℕ) a ≤ S19x10.size a) :
    arg4.view.readCov [(⟨Rect.unit ![0, 0] ![19, 10] inb0, k0_pay4 (F := Ideal)⟩ : View.Piece (Elt Ideal) S19x10 .f32)]
        (Rect.unit (s := S19x10) ![0, b] ![19, 1] inb).toLoadRect
      = fun _ => (0 : EReal) := by
  rw [View.readCov_eq_canon', View.canon_unit_zero (S := S19x10) conf_hz2]
  funext x
  exact Ideal.ofBits_zero_f32

/-- A store to another column does not change what a column reads. -/
private theorem conf_readCov_skip (arg4 : Memref sig .tc .vmem S19x10 .f32) (b' b : ℕ)
    (inb' : ∀ a, (![0, b'] : Fin 2 → ℕ) a + (![19, 1] : Fin 2 → ℕ) a ≤ S19x10.size a)
    (inb : ∀ a, (![0, b] : Fin 2 → ℕ) a + (![19, 1] : Fin 2 → ℕ) a ≤ S19x10.size a)
    (w : FVec Ideal S19x1 .f32) (L : List (View.Piece (Elt Ideal) S19x10 .f32)) (h : b' ≠ b) :
    arg4.view.readCov ((⟨Rect.unit ![0, b'] ![19, 1] inb', w⟩ : View.Piece (Elt Ideal) S19x10 .f32) :: L)
        (Rect.unit (s := S19x10) ![0, b] ![19, 1] inb).toLoadRect
      = arg4.view.readCov L (Rect.unit (s := S19x10) ![0, b] ![19, 1] inb).toLoadRect := by
  rw [View.readCov_eq_canon', View.readCov_eq_canon']
  funext x
  refine View.canon_cons_of_not_mem _ _ ?_
  rw [Rect.mem_set_unit]
  intro hm
  have h1 := hm 1
  have hx : (x 1).val < 1 := (x 1).isLt
  change b' ≤ b + 1 * (x 1).val ∧ b + 1 * (x 1).val < b' + 1 at h1
  omega

/-- Over a zero column, the column-b store's payload is the tile's addend at the place the store's row names. -/
private theorem conf_pieceA (x0 : Vec Ideal S19x128x128 .f32) (b : ℕ)
    (inb : ∀ a, (![0, b] : Fin 2 → ℕ) a + (![19, 1] : Fin 2 → ℕ) a ≤ S19x10.size a) (x : S19x1.Idx) :
    confCol (k0_pay7 (F := Ideal) x0) (k0_pay8 (F := Ideal) x0) (k0_pay9 (F := Ideal) x0)
        (fun _ => (0 : EReal)) (BitVec.ofNat 32 b) x
      = tileConf x0 ((Rect.unit (s := S19x10) ![0, b] ![19, 1] inb).emb x) :=
  (conf_piece x0 (fun _ => (0 : EReal)) b inb x).trans (zero_add _)

/-- The first point: the tile's addend. -/
theorem out_A_2 (c : Dev nD) (i : grid0.Coords) (arg2 : Memref sig .tc .vmem S19x128x128 .f32) (harg2 : arg2.IsWhole) (arg3 : Memref sig .tc .vmem S128x128 .i32) (harg3 : arg3.IsWhole) (arg4 : Memref sig .tc .vmem S19x10 .f32) (harg4 : arg4.IsWhole) (arg5 : Memref sig .tc .vmem S19x10 .f32) (harg5 : arg5.IsWhole) (arg6 : Memref sig .tc .vmem S19x10 .f32) (harg6 : arg6.IsWhole) (hc0 : cond0_0 i)
    (x0 : Vec Ideal S19x128x128 .f32) (x1 : Vec Ideal S128x128 .i32) :
    out0_A_2 (F := Ideal) c i arg2 harg2 arg3 harg3 arg4 harg4 arg5 harg5 arg6 harg6 hc0 x0 x1 = tileConf x0 := by
  unfold out0_A_2
  rw [View.read_writes_eq_canon _ _ _ (cover0_A_2 c i arg2 harg2 arg3 harg3 arg4 harg4 arg5 harg5 arg6 harg6 hc0 x0 x1)]
  funext j
  unfold kernelRun0_A
  dsimp only
  sl_unfold_words
  simp (config := { decide := true }) only [View.readAt_eq_ld, harg2.read_unread, View.ld_unit_zero (S := S19x128x128) conf_hz3,
    conf_readCov_skip, conf_readCov_zero]
  refine View.canon_append_of_pieces (tileConf x0) [_] (_ :: _ :: _ :: _ :: _ :: _ :: _ :: _ :: _ :: [_]) ?_ j ?_
  ·
    refine List.forall_mem_cons.mpr ⟨fun x => (congrFun (conf_pay9 _ _ _ _) x).trans (conf_pieceA x0 9 inb_S19x10_S19x1_0_9 x), ?_⟩
    refine List.forall_mem_cons.mpr ⟨fun x => (congrFun (conf_pay8 _ _ _ _) x).trans (conf_pieceA x0 8 inb_S19x10_S19x1_0_8 x), ?_⟩
    refine List.forall_mem_cons.mpr ⟨fun x => (congrFun (conf_pay7 _ _ _ _) x).trans (conf_pieceA x0 7 inb_S19x10_S19x1_0_7 x), ?_⟩
    refine List.forall_mem_cons.mpr ⟨fun x => (congrFun (conf_pay6 _ _ _ _) x).trans (conf_pieceA x0 6 inb_S19x10_S19x1_0_6 x), ?_⟩
    refine List.forall_mem_cons.mpr ⟨fun x => (congrFun (conf_pay5 _ _ _ _) x).trans (conf_pieceA x0 5 inb_S19x10_S19x1_0_5 x), ?_⟩
    refine List.forall_mem_cons.mpr ⟨fun x => (congrFun (conf_pay4 _ _ _ _) x).trans (conf_pieceA x0 4 inb_S19x10_S19x1_0_4 x), ?_⟩
    refine List.forall_mem_cons.mpr ⟨fun x => (congrFun (conf_pay3 _ _ _ _) x).trans (conf_pieceA x0 3 inb_S19x10_S19x1_0_3 x), ?_⟩
    refine List.forall_mem_cons.mpr ⟨fun x => (congrFun (conf_pay2 _ _ _ _) x).trans (conf_pieceA x0 2 inb_S19x10_S19x1_0_2 x), ?_⟩
    refine List.forall_mem_cons.mpr ⟨fun x => (congrFun (conf_pay1 _ _ _ _) x).trans (conf_pieceA x0 1 inb_S19x10_S19x1_0_1 x), ?_⟩
    refine List.forall_mem_cons.mpr ⟨fun x => (congrFun (conf_pay0 _ _ _) x).trans (conf_pieceA x0 0 inb_S19x10_S19x1_0_0 x), ?_⟩
    exact fun _ h => absurd h List.not_mem_nil
  · exact View.cover_of_tiledL (s := S19x10) _ ![19, 1] (by sl_kernel_rfl) j

/-- A later point: what the point before left, plus the tile's addend. -/
theorem out_B_2 (c : Dev nD) (i : grid0.Coords) (arg2 : Memref sig .tc .vmem S19x128x128 .f32) (harg2 : arg2.IsWhole) (arg3 : Memref sig .tc .vmem S128x128 .i32) (harg3 : arg3.IsWhole) (arg4 : Memref sig .tc .vmem S19x10 .f32) (harg4 : arg4.IsWhole) (arg5 : Memref sig .tc .vmem S19x10 .f32) (harg5 : arg5.IsWhole) (arg6 : Memref sig .tc .vmem S19x10 .f32) (harg6 : arg6.IsWhole) (hc0 : ¬cond0_0 i)
    (x0 : Vec Ideal S19x128x128 .f32) (x1 : Vec Ideal S128x128 .i32) (xo2 xo3 xo4 : Vec Ideal S19x10 .f32) :
    out0_B_2 (F := Ideal) c i arg2 harg2 arg3 harg3 arg4 harg4 arg5 harg5 arg6 harg6 hc0 x0 x1 xo2 xo3 xo4 = fun j => xo2 j + tileConf x0 j := by
  unfold out0_B_2
  rw [View.read_writes_eq_canon _ _ _ (cover0_B_2 c i arg2 harg2 arg3 harg3 arg4 harg4 arg5 harg5 arg6 harg6 hc0 x0 x1 xo2 xo3 xo4)]
  funext j
  refine View.canon_apply_of_pieces (fun j => xo2 j + tileConf x0 j) _ ?_ j
    (cover0_B_2 c i arg2 harg2 arg3 harg3 arg4 harg4 arg5 harg5 arg6 harg6 hc0 x0 x1 xo2 xo3 xo4 j)
  unfold kernelRun0_B
  dsimp only
  sl_unfold_words
  simp only [View.readAt_eq_ld, harg2.read_unread, harg4.read_unread, View.ld_unit_zero (S := S19x128x128) conf_hz3]
  refine List.forall_mem_cons.mpr ⟨fun x => (congrFun (conf_pay9 _ _ _ _) x).trans (conf_piece x0 xo2 9 _ x), ?_⟩
  refine List.forall_mem_cons.mpr ⟨fun x => (congrFun (conf_pay8 _ _ _ _) x).trans (conf_piece x0 xo2 8 _ x), ?_⟩
  refine List.forall_mem_cons.mpr ⟨fun x => (congrFun (conf_pay7 _ _ _ _) x).trans (conf_piece x0 xo2 7 _ x), ?_⟩
  refine List.forall_mem_cons.mpr ⟨fun x => (congrFun (conf_pay6 _ _ _ _) x).trans (conf_piece x0 xo2 6 _ x), ?_⟩
  refine List.forall_mem_cons.mpr ⟨fun x => (congrFun (conf_pay5 _ _ _ _) x).trans (conf_piece x0 xo2 5 _ x), ?_⟩
  refine List.forall_mem_cons.mpr ⟨fun x => (congrFun (conf_pay4 _ _ _ _) x).trans (conf_piece x0 xo2 4 _ x), ?_⟩
  refine List.forall_mem_cons.mpr ⟨fun x => (congrFun (conf_pay3 _ _ _ _) x).trans (conf_piece x0 xo2 3 _ x), ?_⟩
  refine List.forall_mem_cons.mpr ⟨fun x => (congrFun (conf_pay2 _ _ _ _) x).trans (conf_piece x0 xo2 2 _ x), ?_⟩
  refine List.forall_mem_cons.mpr ⟨fun x => (congrFun (conf_pay1 _ _ _ _) x).trans (conf_piece x0 xo2 1 _ x), ?_⟩
  refine List.forall_mem_cons.mpr ⟨fun x => (congrFun (conf_pay0 _ _ _) x).trans (conf_piece x0 xo2 0 _ x), ?_⟩
  exact fun _ h => absurd h List.not_mem_nil

end Cert.Hist.K

end
-- ==== Proof.KPiece3.lean ====
/-
  What the kernel body leaves in the count histogram's block at one grid point: at the first point (the block is
  zeroed, then each of its ten columns is read back, added to and stored) the tile's addend; at any later point the
  block as the point before left it plus the tile's addend.
-/
import proofs.«153688_j19292993094305_1_alg».proof.Proof.KPix
import Idealize.ShloMosaic.Lib.Pipeline.CanonAppend
import Idealize.ShloMosaic.Lib.Tactic

set_option maxRecDepth 16384

noncomputable section

namespace Cert.Hist.K

open Idealize.ShloMosaic Idealize.ShloMosaic.TcCoe Idealize.ShloMosaic.Tactic Idealize.ShloMosaic.ValueIdx Idealize.SL.Sem
open Cert.KernelIdeal Cert.KernelIdeal.Gen Cert.Hist

/-! ## One column of the block -/

/-- The zero offsets of a whole tile and of a whole block. -/
private theorem hz3 : (![0, 0, 0] : Fin 3 → ℕ) = fun _ => 0 := funext fun a => by fin_cases a <;> rfl
private theorem hz2 : (![0, 0] : Fin 2 → ℕ) = fun _ => 0 := funext fun a => by fin_cases a <;> rfl

/-- Column b of the block, placed in the block: local index (k, 0) is the block's index (k, b). -/
private theorem col_emb_zero (b : ℕ) (inb : ∀ a, (![0, b] : Fin 2 → ℕ) a + (![19, 1] : Fin 2 → ℕ) a ≤ S19x10.size a)
    (x : S19x1.Idx) : (Rect.unit (s := S19x10) ![0, b] ![19, 1] inb).emb x 0 = x 0 := by
  apply Fin.ext
  show (![0, b] : Fin 2 → ℕ) 0 + 1 * (x 0 : ℕ) = (x 0 : ℕ)
  simp

private theorem col_emb_one (b : ℕ) (inb : ∀ a, (![0, b] : Fin 2 → ℕ) a + (![19, 1] : Fin 2 → ℕ) a ≤ S19x10.size a)
    (x : S19x1.Idx) : ((Rect.unit (s := S19x10) ![0, b] ![19, 1] inb).emb x 1 : ℕ) = b := by
  have hx : (x 1 : ℕ) < 1 := (x 1).isLt
  show (![0, b] : Fin 2 → ℕ) 1 + 1 * (x 1 : ℕ) = b
  simp
  omega

/-- One column update over the tile's mask of bin b: the old entry plus the tile's addend at (k, b). -/
private theorem col_piece (x0 : Vec Ideal S19x128x128 .f32) (old : Vec Ideal S19x1 .f32) (b : ℕ)
    (inb : ∀ a, (![0, b] : Fin 2 → ℕ) a + (![19, 1] : Fin 2 → ℕ) a ≤ S19x10.size a) (x : S19x1.Idx)
    (o : EReal) (ho : old x = o) :
    colUpd old (maskVec (k0_pay8 (F := Ideal) x0) (k0_pay9 (F := Ideal) x0) (BitVec.ofNat 32 b)) x
      = o + tilePred x0 ((Rect.unit (s := S19x10) ![0, b] ![19, 1] inb).emb x) := by
  rw [colUpd_apply, ho]
  have h1 : binWord ((Rect.unit (s := S19x10) ![0, b] ![19, 1] inb).emb x) = BitVec.ofNat 32 b := by
    show BitVec.ofNat 32 _ = _
    rw [col_emb_one]
  show _ = o + ∑ y : Fin 128, ∑ x' : Fin 128, predAdd (tcol x0 y x') _ _
  rw [h1, col_emb_zero]
  refine congrArg (o + ·) (Finset.sum_congr rfl fun y _ => Finset.sum_congr rfl fun x' _ => ?_)
  exact maskVec_apply x0 _ (x 0) y x'

/-! ## The ten column stores, as the body spells them -/

/-- Each column's stored value, however the body's text cuts it, is the one column update over the mask of its bin. -/
private theorem pay_col0 (x0 : Vec Ideal S19x128x128 .f32) (old : Vec Ideal S19x1 .f32) :
    k0_pay13 (F := Ideal) (k0_pay11 (F := Ideal) x0) old
      = colUpd old (maskVec (k0_pay8 (F := Ideal) x0) (k0_pay9 (F := Ideal) x0) (BitVec.ofNat 32 0)) := rfl
private theorem pay_col1 (bin : IVec S19x128x128 32) (valid : IVec S19x128x128 1) (old : Vec Ideal S19x1 .f32) :
    k0_pay19 (F := Ideal) (k0_pay17 (F := Ideal) bin valid) old = colUpd old (maskVec bin valid (BitVec.ofNat 32 1)) := rfl
private theorem pay_col2 (bin : IVec S19x128x128 32) (valid : IVec S19x128x128 1) (old : Vec Ideal S19x1 .f32) :
    k0_pay26 (F := Ideal) (k0_pay23 (F := Ideal) bin valid) old = colUpd old (maskVec bin valid (BitVec.ofNat 32 2)) := rfl
private theorem pay_col3 (bin : IVec S19x128x128 32) (valid : IVec S19x128x128 1) (old : Vec Ideal S19x1 .f32) :
    k0_pay33 (F := Ideal) (k0_pay29 (F := Ideal) bin valid) old = colUpd old (maskVec bin valid (BitVec.ofNat 32 3)) := rfl
private theorem pay_col4 (bin : IVec S19x128x128 32) (valid : IVec S19x128x128 1) (old : Vec Ideal S19x1 .f32) :
    k0_pay39 (F := Ideal) (k0_pay36 (F := Ideal) bin valid) old = colUpd old (maskVec bin valid (BitVec.ofNat 32 4)) := rfl
private theorem pay_col5 (bin : IVec S19x128x128 32) (valid : IVec S19x128x128 1) (old : Vec Ideal S19x1 .f32) :
    k0_pay44 (F := Ideal) bin valid old = colUpd old (maskVec bin valid (BitVec.ofNat 32 5)) := rfl
private theorem pay_col6 (bin : IVec S19x128x128 32) (valid : IVec S19x128x128 1) (old : Vec Ideal S19x1 .f32) :
    k0_pay48 (F := Ideal) bin valid old = colUpd old (maskVec bin valid (BitVec.ofNat 32 6)) := rfl
private theorem pay_col7 (bin : IVec S19x128x128 32) (valid : IVec S19x128x128 1) (old : Vec Ideal S19x1 .f32) :
    k0_pay53 (F := Ideal) bin valid old = colUpd old (maskVec bin valid (BitVec.ofNat 32 7)) := rfl
private theorem pay_col8 (bin : IVec S19x128x128 32) (valid : IVec S19x128x128 1) (old : Vec Ideal S19x1 .f32) :
    k0_pay58 (F := Ideal) bin valid k0_pay55 old = colUpd old (maskVec bin valid (BitVec.ofNat 32 8)) := rfl
private theorem pay_col9 (bin : IVec S19x128x128 32) (valid : IVec S19x128x128 1) (old : Vec Ideal S19x1 .f32) :
    k0_pay2 (F := Ideal) (k0_pay60 (F := Ideal) bin valid) old = colUpd old (maskVec bin valid (BitVec.ofNat 32 9)) := rfl

/-! ## Ten column stores cover the block -/

/-- An index of the block lies in the column its second coordinate names. -/
private theorem col_mem (b : ℕ) (inb : (∀ a, (![0, b] : Fin 2 → ℕ) a + (![19, 1] : Fin 2 → ℕ) a ≤ S19x10.size a)) (y : S19x10.Idx) (h : (y 1 : ℕ) = b) :
    y ∈ (Rect.unit (s := S19x10) ![0, b] ![19, 1] inb).set := by
  rw [Rect.mem_set_unit]
  intro a
  have h0 : (y 0 : ℕ) < 19 := (y 0).isLt
  fin_cases a
  · show (![0, b] : Fin 2 → ℕ) 0 ≤ (y 0 : ℕ) ∧ (y 0 : ℕ) < (![0, b] : Fin 2 → ℕ) 0 + (![19, 1] : Fin 2 → ℕ) 0
    simp
    omega
  · show (![0, b] : Fin 2 → ℕ) 1 ≤ (y 1 : ℕ) ∧ (y 1 : ℕ) < (![0, b] : Fin 2 → ℕ) 1 + (![19, 1] : Fin 2 → ℕ) 1
    simp
    omega

/-- and in no other column. -/
private theorem col_not_mem (b b' : ℕ) (hne : b' ≠ b) (inb : (∀ a, (![0, b] : Fin 2 → ℕ) a + (![19, 1] : Fin 2 → ℕ) a ≤ S19x10.size a)) (inb' : (∀ a, (![0, b'] : Fin 2 → ℕ) a + (![19, 1] : Fin 2 → ℕ) a ≤ S19x10.size a)) (x : S19x1.Idx) :
    (Rect.unit (s := S19x10) ![0, b] ![19, 1] inb).emb x ∉ (Rect.unit (s := S19x10) ![0, b'] ![19, 1] inb').set := by
  rw [Rect.mem_set_unit]
  intro h
  have h1 := h 1
  rw [col_emb_one] at h1
  have h2 : (![0, b'] : Fin 2 → ℕ) 1 ≤ b ∧ b < (![0, b'] : Fin 2 → ℕ) 1 + (![19, 1] : Fin 2 → ℕ) 1 := h1
  simp at h2
  omega

/-- Ten column stores, each agreeing with one function of the block's index, over any earlier stores: the block reads
    that function. -/
private theorem canon_cols (G : S19x10.Idx → EReal) (L' : List (View.Piece (Elt Ideal) S19x10 .f32))
    (i9 : (∀ a, (![0, 9] : Fin 2 → ℕ) a + (![19, 1] : Fin 2 → ℕ) a ≤ S19x10.size a))
    (i8 : (∀ a, (![0, 8] : Fin 2 → ℕ) a + (![19, 1] : Fin 2 → ℕ) a ≤ S19x10.size a))
    (i7 : (∀ a, (![0, 7] : Fin 2 → ℕ) a + (![19, 1] : Fin 2 → ℕ) a ≤ S19x10.size a))
    (i6 : (∀ a, (![0, 6] : Fin 2 → ℕ) a + (![19, 1] : Fin 2 → ℕ) a ≤ S19x10.size a))
    (i5 : (∀ a, (![0, 5] : Fin 2 → ℕ) a + (![19, 1] : Fin 2 → ℕ) a ≤ S19x10.size a))
    (i4 : (∀ a, (![0, 4] : Fin 2 → ℕ) a + (![19, 1] : Fin 2 → ℕ) a ≤ S19x10.size a))
    (i3 : (∀ a, (![0, 3] : Fin 2 → ℕ) a + (![19, 1] : Fin 2 → ℕ) a ≤ S19x10.size a))
    (i2 : (∀ a, (![0, 2] : Fin 2 → ℕ) a + (![19, 1] : Fin 2 → ℕ) a ≤ S19x10.size a))
    (i1 : (∀ a, (![0, 1] : Fin 2 → ℕ) a + (![19, 1] : Fin 2 → ℕ) a ≤ S19x10.size a))
    (i0 : (∀ a, (![0, 0] : Fin 2 → ℕ) a + (![19, 1] : Fin 2 → ℕ) a ≤ S19x10.size a))
    (w9 w8 w7 w6 w5 w4 w3 w2 w1 w0 : S19x1.Idx → EReal)
    (h9 : ∀ x, w9 x = G ((Rect.unit (s := S19x10) ![0, 9] ![19, 1] i9).emb x))
    (h8 : ∀ x, w8 x = G ((Rect.unit (s := S19x10) ![0, 8] ![19, 1] i8).emb x))
    (h7 : ∀ x, w7 x = G ((Rect.unit (s := S19x10) ![0, 7] ![19, 1] i7).emb x))
    (h6 : ∀ x, w6 x = G ((Rect.unit (s := S19x10) ![0, 6] ![19, 1] i6).emb x))
    (h5 : ∀ x, w5 x = G ((Rect.unit (s := S19x10) ![0, 5] ![19, 1] i5).emb x))
    (h4 : ∀ x, w4 x = G ((Rect.unit (s := S19x10) ![0, 4] ![19, 1] i4).emb x))
    (h3 : ∀ x, w3 x = G ((Rect.unit (s := S19x10) ![0, 3] ![19, 1] i3).emb x))
    (h2 : ∀ x, w2 x = G ((Rect.unit (s := S19x10) ![0, 2] ![19, 1] i2).emb x))
    (h1 : ∀ x, w1 x = G ((Rect.unit (s := S19x10) ![0, 1] ![19, 1] i1).emb x))
    (h0 : ∀ x, w0 x = G ((Rect.unit (s := S19x10) ![0, 0] ![19, 1] i0).emb x))
    (y : S19x10.Idx) :
    View.canon ((⟨(Rect.unit (s := S19x10) ![0, 9] ![19, 1] i9), w9⟩ : View.Piece (Elt Ideal) S19x10 .f32) :: (⟨(Rect.unit (s := S19x10) ![0, 8] ![19, 1] i8), w8⟩ : View.Piece (Elt Ideal) S19x10 .f32) :: (⟨(Rect.unit (s := S19x10) ![0, 7] ![19, 1] i7), w7⟩ : View.Piece (Elt Ideal) S19x10 .f32) :: (⟨(Rect.unit (s := S19x10) ![0, 6] ![19, 1] i6), w6⟩ : View.Piece (Elt Ideal) S19x10 .f32) :: (⟨(Rect.unit (s := S19x10) ![0, 5] ![19, 1] i5), w5⟩ : View.Piece (Elt Ideal) S19x10 .f32) :: (⟨(Rect.unit (s := S19x10) ![0, 4] ![19, 1] i4), w4⟩ : View.Piece (Elt Ideal) S19x10 .f32) :: (⟨(Rect.unit (s := S19x10) ![0, 3] ![19, 1] i3), w3⟩ : View.Piece (Elt Ideal) S19x10 .f32) :: (⟨(Rect.unit (s := S19x10) ![0, 2] ![19, 1] i2), w2⟩ : View.Piece (Elt Ideal) S19x10 .f32) :: (⟨(Rect.unit (s := S19x10) ![0, 1] ![19, 1] i1), w1⟩ : View.Piece (Elt Ideal) S19x10 .f32) :: (⟨(Rect.unit (s := S19x10) ![0, 0] ![19, 1] i0), w0⟩ : View.Piece (Elt Ideal) S19x10 .f32) :: L') y = G y := by
  refine View.canon_append_of_pieces G L' [⟨(Rect.unit (s := S19x10) ![0, 9] ![19, 1] i9), w9⟩, ⟨(Rect.unit (s := S19x10) ![0, 8] ![19, 1] i8), w8⟩, ⟨(Rect.unit (s := S19x10) ![0, 7] ![19, 1] i7), w7⟩, ⟨(Rect.unit (s := S19x10) ![0, 6] ![19, 1] i6), w6⟩, ⟨(Rect.unit (s := S19x10) ![0, 5] ![19, 1] i5), w5⟩, ⟨(Rect.unit (s := S19x10) ![0, 4] ![19, 1] i4), w4⟩, ⟨(Rect.unit (s := S19x10) ![0, 3] ![19, 1] i3), w3⟩, ⟨(Rect.unit (s := S19x10) ![0, 2] ![19, 1] i2), w2⟩, ⟨(Rect.unit (s := S19x10) ![0, 1] ![19, 1] i1), w1⟩, ⟨(Rect.unit (s := S19x10) ![0, 0] ![19, 1] i0), w0⟩] ?_ y ?_
  · intro p hp x
    simp only [List.mem_cons, List.not_mem_nil, or_false] at hp
    rcases hp with rfl | rfl | rfl | rfl | rfl | rfl | rfl | rfl | rfl | rfl
    · exact h9 x
    · exact h8 x
    · exact h7 x
    · exact h6 x
    · exact h5 x
    · exact h4 x
    · exact h3 x
    · exact h2 x
    · exact h1 x
    · exact h0 x
  · have hy : (y 1 : ℕ) < 10 := (y 1).isLt
    have hc : (y 1 : ℕ) = 0 ∨ (y 1 : ℕ) = 1 ∨ (y 1 : ℕ) = 2 ∨ (y 1 : ℕ) = 3 ∨ (y 1 : ℕ) = 4 ∨ (y 1 : ℕ) = 5 ∨ (y 1 : ℕ) = 6 ∨ (y 1 : ℕ) = 7 ∨ (y 1 : ℕ) = 8 ∨ (y 1 : ℕ) = 9 := by omega
    rcases hc with h | h | h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), col_mem 0 i0 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), col_mem 1 i1 y h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), col_mem 2 i2 y h⟩
    · exact ⟨_, List.mem_cons_of_mem _ (List.mem_cons_of_mem _ (List.mem_cons_of_mem _ (List.mem_cons_of_mem _ (List.mem_cons_of_mem _ (List.mem_cons_of_mem _ (List.mem_cons_self)))))), col_mem 3 i3 y h⟩
    · exact ⟨_, List.mem_cons_of_mem _ (List.mem_cons_of_mem _ (List.mem_cons_of_mem _ (List.mem_cons_of_mem _ (List.mem_cons_of_mem _ (List.mem_cons_self))))), col_mem 4 i4 y h⟩
    · exact ⟨_, List.mem_cons_of_mem _ (List.mem_cons_of_mem _ (List.mem_cons_of_mem _ (List.mem_cons_of_mem _ (List.mem_cons_self)))), col_mem 5 i5 y h⟩
    · exact ⟨_, List.mem_cons_of_mem _ (List.mem_cons_of_mem _ (List.mem_cons_of_mem _ (List.mem_cons_self))), col_mem 6 i6 y h⟩
    · exact ⟨_, List.mem_cons_of_mem _ (List.mem_cons_of_mem _ (List.mem_cons_self)), col_mem 7 i7 y h⟩
    · exact ⟨_, List.mem_cons_of_mem _ (List.mem_cons_self), col_mem 8 i8 y h⟩
    · exact ⟨_, List.mem_cons_self, col_mem 9 i9 y h⟩

/-! ## The first point: every column is read back as zero -/

/-- A store into another column leaves column b as it was. -/
private theorem canon_cons_col_ne (b b' : ℕ) (hne : b' ≠ b) (inb : (∀ a, (![0, b] : Fin 2 → ℕ) a + (![19, 1] : Fin 2 → ℕ) a ≤ S19x10.size a)) (inb' : (∀ a, (![0, b'] : Fin 2 → ℕ) a + (![19, 1] : Fin 2 → ℕ) a ≤ S19x10.size a))
    (w' : S19x1.Idx → EReal) (L : List (View.Piece (Elt Ideal) S19x10 .f32)) (x : S19x1.Idx) :
    View.canon ((⟨(Rect.unit (s := S19x10) ![0, b'] ![19, 1] inb'), w'⟩ : View.Piece (Elt Ideal) S19x10 .f32) :: L) ((Rect.unit (s := S19x10) ![0, b] ![19, 1] inb).emb x)
      = View.canon L ((Rect.unit (s := S19x10) ![0, b] ![19, 1] inb).emb x) :=
  View.canon_cons_of_not_mem _ _ (col_not_mem b b' hne inb inb' x)

/-- The zeroing store alone leaves zero everywhere. -/
private theorem canon_zero_store (inb : ∀ a, (![0, 0] : Fin 2 → ℕ) a + S19x10.size a ≤ S19x10.size a) (y : S19x10.Idx) :
    View.canon [(⟨Rect.unit (s := S19x10) ![0, 0] S19x10.size inb, k0_pay5 (F := Ideal)⟩ : View.Piece (Elt Ideal) S19x10 .f32)] y = 0 := by
  rw [View.canon_unit_zero hz2]
  exact Ideal.ofBits_zero_f32

/-- The first point: the tile's addend. -/
theorem out_A_3 (c : Dev nD) (i : grid0.Coords) (arg2 : Memref sig .tc .vmem S19x128x128 .f32) (harg2 : arg2.IsWhole) (arg3 : Memref sig .tc .vmem S128x128 .i32) (harg3 : arg3.IsWhole) (arg4 : Memref sig .tc .vmem S19x10 .f32) (harg4 : arg4.IsWhole) (arg5 : Memref sig .tc .vmem S19x10 .f32) (harg5 : arg5.IsWhole) (arg6 : Memref sig .tc .vmem S19x10 .f32) (harg6 : arg6.IsWhole) (hc0 : cond0_0 i)
    (x0 : Vec Ideal S19x128x128 .f32) (x1 : Vec Ideal S128x128 .i32) :
    out0_A_3 (F := Ideal) c i arg2 harg2 arg3 harg3 arg4 harg4 arg5 harg5 arg6 harg6 hc0 x0 x1 = tilePred x0 := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  simp only [View.readAt_eq_ld, harg2.read_unread, View.ld_unit_zero (S := S19x128x128) hz3]
  funext j
  refine canon_cols (tilePred x0) _ _ _ _ _ _ _ _ _ _ _ _ _ _ _ _ _ _ _ _ _ ?_ ?_ ?_ ?_ ?_ ?_ ?_ ?_ ?_ ?_ j
  · intro x
    rw [pay_col9]
    refine (col_piece x0 _ 9 _ x 0 ?_).trans (zero_add _)
    rw [View.readCov_eq_canon']
    show View.canon _ ((Rect.unit (s := S19x10) ![0, 9] ![19, 1] _).emb x) = 0
    rw [canon_cons_col_ne 9 8 (by decide) _ _ _ _ x,
      canon_cons_col_ne 9 7 (by decide) _ _ _ _ x,
      canon_cons_col_ne 9 6 (by decide) _ _ _ _ x,
      canon_cons_col_ne 9 5 (by decide) _ _ _ _ x,
      canon_cons_col_ne 9 4 (by decide) _ _ _ _ x,
      canon_cons_col_ne 9 3 (by decide) _ _ _ _ x,
      canon_cons_col_ne 9 2 (by decide) _ _ _ _ x,
      canon_cons_col_ne 9 1 (by decide) _ _ _ _ x,
      canon_cons_col_ne 9 0 (by decide) _ _ _ _ x]
    exact canon_zero_store _ _
  · intro x
    rw [pay_col8]
    refine (col_piece x0 _ 8 _ x 0 ?_).trans (zero_add _)
    rw [View.readCov_eq_canon']
    show View.canon _ ((Rect.unit (s := S19x10) ![0, 8] ![19, 1] _).emb x) = 0
    rw [canon_cons_col_ne 8 7 (by decide) _ _ _ _ x,
      canon_cons_col_ne 8 6 (by decide) _ _ _ _ x,
      canon_cons_col_ne 8 5 (by decide) _ _ _ _ x,
      canon_cons_col_ne 8 4 (by decide) _ _ _ _ x,
      canon_cons_col_ne 8 3 (by decide) _ _ _ _ x,
      canon_cons_col_ne 8 2 (by decide) _ _ _ _ x,
      canon_cons_col_ne 8 1 (by decide) _ _ _ _ x,
      canon_cons_col_ne 8 0 (by decide) _ _ _ _ x]
    exact canon_zero_store _ _
  · intro x
    rw [pay_col7]
    refine (col_piece x0 _ 7 _ x 0 ?_).trans (zero_add _)
    rw [View.readCov_eq_canon']
    show View.canon _ ((Rect.unit (s := S19x10) ![0, 7] ![19, 1] _).emb x) = 0
    rw [canon_cons_col_ne 7 6 (by decide) _ _ _ _ x,
      canon_cons_col_ne 7 5 (by decide) _ _ _ _ x,
      canon_cons_col_ne 7 4 (by decide) _ _ _ _ x,
      canon_cons_col_ne 7 3 (by decide) _ _ _ _ x,
      canon_cons_col_ne 7 2 (by decide) _ _ _ _ x,
      canon_cons_col_ne 7 1 (by decide) _ _ _ _ x,
      canon_cons_col_ne 7 0 (by decide) _ _ _ _ x]
    exact canon_zero_store _ _
  · intro x
    rw [pay_col6]
    refine (col_piece x0 _ 6 _ x 0 ?_).trans (zero_add _)
    rw [View.readCov_eq_canon']
    show View.canon _ ((Rect.unit (s := S19x10) ![0, 6] ![19, 1] _).emb x) = 0
    rw [canon_cons_col_ne 6 5 (by decide) _ _ _ _ x,
      canon_cons_col_ne 6 4 (by decide) _ _ _ _ x,
      canon_cons_col_ne 6 3 (by decide) _ _ _ _ x,
      canon_cons_col_ne 6 2 (by decide) _ _ _ _ x,
      canon_cons_col_ne 6 1 (by decide) _ _ _ _ x,
      canon_cons_col_ne 6 0 (by decide) _ _ _ _ x]
    exact canon_zero_store _ _
  · intro x
    rw [pay_col5]
    refine (col_piece x0 _ 5 _ x 0 ?_).trans (zero_add _)
    rw [View.readCov_eq_canon']
    show View.canon _ ((Rect.unit (s := S19x10) ![0, 5] ![19, 1] _).emb x) = 0
    rw [canon_cons_col_ne 5 4 (by decide) _ _ _ _ x,
      canon_cons_col_ne 5 3 (by decide) _ _ _ _ x,
      canon_cons_col_ne 5 2 (by decide) _ _ _ _ x,
      canon_cons_col_ne 5 1 (by decide) _ _ _ _ x,
      canon_cons_col_ne 5 0 (by decide) _ _ _ _ x]
    exact canon_zero_store _ _
  · intro x
    rw [pay_col4]
    refine (col_piece x0 _ 4 _ x 0 ?_).trans (zero_add _)
    rw [View.readCov_eq_canon']
    show View.canon _ ((Rect.unit (s := S19x10) ![0, 4] ![19, 1] _).emb x) = 0
    rw [canon_cons_col_ne 4 3 (by decide) _ _ _ _ x,
      canon_cons_col_ne 4 2 (by decide) _ _ _ _ x,
      canon_cons_col_ne 4 1 (by decide) _ _ _ _ x,
      canon_cons_col_ne 4 0 (by decide) _ _ _ _ x]
    exact canon_zero_store _ _
  · intro x
    rw [pay_col3]
    refine (col_piece x0 _ 3 _ x 0 ?_).trans (zero_add _)
    rw [View.readCov_eq_canon']
    show View.canon _ ((Rect.unit (s := S19x10) ![0, 3] ![19, 1] _).emb x) = 0
    rw [canon_cons_col_ne 3 2 (by decide) _ _ _ _ x,
      canon_cons_col_ne 3 1 (by decide) _ _ _ _ x,
      canon_cons_col_ne 3 0 (by decide) _ _ _ _ x]
    exact canon_zero_store _ _
  · intro x
    rw [pay_col2]
    refine (col_piece x0 _ 2 _ x 0 ?_).trans (zero_add _)
    rw [View.readCov_eq_canon']
    show View.canon _ ((Rect.unit (s := S19x10) ![0, 2] ![19, 1] _).emb x) = 0
    rw [canon_cons_col_ne 2 1 (by decide) _ _ _ _ x,
      canon_cons_col_ne 2 0 (by decide) _ _ _ _ x]
    exact canon_zero_store _ _
  · intro x
    rw [pay_col1]
    refine (col_piece x0 _ 1 _ x 0 ?_).trans (zero_add _)
    rw [View.readCov_eq_canon']
    show View.canon _ ((Rect.unit (s := S19x10) ![0, 1] ![19, 1] _).emb x) = 0
    rw [canon_cons_col_ne 1 0 (by decide) _ _ _ _ x]
    exact canon_zero_store _ _
  · intro x
    rw [pay_col0]
    refine (col_piece x0 _ 0 _ x 0 ?_).trans (zero_add _)
    rw [View.readCov_eq_canon']
    show View.canon _ ((Rect.unit (s := S19x10) ![0, 0] ![19, 1] _).emb x) = 0
    exact canon_zero_store _ _

/-- A later point: what the point before left, plus the tile's addend. -/
theorem out_B_3 (c : Dev nD) (i : grid0.Coords) (arg2 : Memref sig .tc .vmem S19x128x128 .f32) (harg2 : arg2.IsWhole) (arg3 : Memref sig .tc .vmem S128x128 .i32) (harg3 : arg3.IsWhole) (arg4 : Memref sig .tc .vmem S19x10 .f32) (harg4 : arg4.IsWhole) (arg5 : Memref sig .tc .vmem S19x10 .f32) (harg5 : arg5.IsWhole) (arg6 : Memref sig .tc .vmem S19x10 .f32) (harg6 : arg6.IsWhole) (hc0 : ¬cond0_0 i)
    (x0 : Vec Ideal S19x128x128 .f32) (x1 : Vec Ideal S128x128 .i32) (xo2 xo3 xo4 : Vec Ideal S19x10 .f32) :
    out0_B_3 (F := Ideal) c i arg2 harg2 arg3 harg3 arg4 harg4 arg5 harg5 arg6 harg6 hc0 x0 x1 xo2 xo3 xo4 = fun j => xo3 j + tilePred x0 j := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  simp only [View.readAt_eq_ld, harg2.read_unread, harg5.read_unread, View.ld_unit_zero (S := S19x128x128) hz3]
  funext j
  refine canon_cols (fun j => xo3 j + tilePred x0 j) [] _ _ _ _ _ _ _ _ _ _ _ _ _ _ _ _ _ _ _ _ ?_ ?_ ?_ ?_ ?_ ?_ ?_ ?_ ?_ ?_ j
  · intro x
    rw [pay_col9]
    exact col_piece x0 _ 9 _ x _ rfl
  · intro x
    rw [pay_col8]
    exact col_piece x0 _ 8 _ x _ rfl
  · intro x
    rw [pay_col7]
    exact col_piece x0 _ 7 _ x _ rfl
  · intro x
    rw [pay_col6]
    exact col_piece x0 _ 6 _ x _ rfl
  · intro x
    rw [pay_col5]
    exact col_piece x0 _ 5 _ x _ rfl
  · intro x
    rw [pay_col4]
    exact col_piece x0 _ 4 _ x _ rfl
  · intro x
    rw [pay_col3]
    exact col_piece x0 _ 3 _ x _ rfl
  · intro x
    rw [pay_col2]
    exact col_piece x0 _ 2 _ x _ rfl
  · intro x
    rw [pay_col1]
    exact col_piece x0 _ 1 _ x _ rfl
  · intro x
    rw [pay_col0]
    exact col_piece x0 _ 0 _ x _ rfl

end Cert.Hist.K

end
-- ==== Proof.KPiece4.lean ====
/-
  What the kernel body leaves in the accuracy histogram's block at one grid point: at the first point (the block is
  zeroed, then each of its ten columns is read back, added to and stored) the tile's addend; at any later point the
  block as the point before left it plus the tile's addend.
-/
import proofs.«153688_j19292993094305_1_alg».proof.Proof.KPix
import Idealize.ShloMosaic.Lib.Pipeline.CanonAppend
import Idealize.ShloMosaic.Lib.Tactic

set_option maxRecDepth 16384

noncomputable section

namespace Cert.Hist.K

open Idealize.ShloMosaic Idealize.ShloMosaic.TcCoe Idealize.ShloMosaic.Tactic Idealize.ShloMosaic.ValueIdx Idealize.SL.Sem
open Cert.KernelIdeal Cert.KernelIdeal.Gen Cert.Hist

/-! The steps toward the two facts, kept under a name of their own. -/

namespace KPiece4

theorem hz3 : (![0, 0, 0] : Fin 3 → ℕ) = fun _ => 0 := funext fun a => by fin_cases a <;> rfl

theorem hz2 : (![0, 0] : Fin 2 → ℕ) = fun _ => 0 := funext fun a => by fin_cases a <;> rfl

/-- One column of the accuracy block after the tile: the old column plus, row by row, the tile's sum of
    (label match) * (mask of bin b). -/
def accCol (x0 : Vec Ideal S19x128x128 .f32) (x1 : Vec Ideal S128x128 .i32) (b : BitVec 32)
    (old : Vec Ideal S19x1 .f32) : FVec Ideal S19x1 .f32 :=
  colUpd old (mulf (k0_pay10 (F := Ideal) x1) (maskVec (k0_pay8 (F := Ideal) x0) (k0_pay9 (F := Ideal) x0) b))

/-- At row k it is the old entry plus the tile's accuracy addend at (k, b). -/
theorem accCol_apply (x0 : Vec Ideal S19x128x128 .f32) (x1 : Vec Ideal S128x128 .i32) (b : BitVec 32)
    (old : Vec Ideal S19x1 .f32) (j : S19x1.Idx) :
    accCol x0 x1 b old j = old j + ∑ y : Fin 128, ∑ x : Fin 128, accAdd (tcol x0 y x) (x1 (ix2 y x)) (j 0) b := by
  unfold accCol
  rw [colUpd_apply]
  refine congrArg (fun t => old j + t) ?_
  refine Finset.sum_congr rfl fun y _ => Finset.sum_congr rfl fun x _ => ?_
  exact congrArg₂ (fun s t : EReal => s * t) (correct_apply x1 (j 0) y x) (maskVec_apply x0 b (j 0) y x)

/-! The ten column payloads, each the same column update with its own bin. -/

theorem col0_eq (x0 : Vec Ideal S19x128x128 .f32) (x1 : Vec Ideal S128x128 .i32) (old : Vec Ideal S19x1 .f32) :
    k0_pay14 (F := Ideal) (k0_pay10 x1) (k0_pay11 x0) old = accCol x0 x1 0#32 old := rfl

theorem col1_eq (x0 : Vec Ideal S19x128x128 .f32) (x1 : Vec Ideal S128x128 .i32) (old : Vec Ideal S19x1 .f32) :
    k0_pay20 (F := Ideal) (k0_pay10 x1) (k0_pay15 (k0_pay8 x0) (k0_pay9 x0)) old = accCol x0 x1 1#32 old := rfl

theorem col2_eq (x0 : Vec Ideal S19x128x128 .f32) (x1 : Vec Ideal S128x128 .i32) (old : Vec Ideal S19x1 .f32) :
    k0_pay27 (F := Ideal) (k0_pay24 (k0_pay8 x0) (k0_pay9 x0) (k0_pay10 x1)) old = accCol x0 x1 2#32 old := rfl

theorem col3_eq (x0 : Vec Ideal S19x128x128 .f32) (x1 : Vec Ideal S128x128 .i32) (old : Vec Ideal S19x1 .f32) :
    k0_pay34 (F := Ideal) (k0_pay30 (k0_pay8 x0) (k0_pay9 x0) (k0_pay10 x1)) old = accCol x0 x1 3#32 old := rfl

theorem col4_eq (x0 : Vec Ideal S19x128x128 .f32) (x1 : Vec Ideal S128x128 .i32) (old : Vec Ideal S19x1 .f32) :
    k0_pay40 (F := Ideal) (k0_pay37 (k0_pay8 x0) (k0_pay9 x0) (k0_pay10 x1)) old = accCol x0 x1 4#32 old := rfl

theorem col5_eq (x0 : Vec Ideal S19x128x128 .f32) (x1 : Vec Ideal S128x128 .i32) (old : Vec Ideal S19x1 .f32) :
    k0_pay45 (F := Ideal) (k0_pay42 (k0_pay8 x0) (k0_pay9 x0) (k0_pay10 x1)) old = accCol x0 x1 5#32 old := rfl

theorem col6_eq (x0 : Vec Ideal S19x128x128 .f32) (x1 : Vec Ideal S128x128 .i32) (old : Vec Ideal S19x1 .f32) :
    k0_pay50 (F := Ideal) (k0_pay49 (k0_pay8 x0) (k0_pay9 x0) (k0_pay10 x1) old) = accCol x0 x1 6#32 old := rfl

theorem col7_eq (x0 : Vec Ideal S19x128x128 .f32) (x1 : Vec Ideal S128x128 .i32) (old : Vec Ideal S19x1 .f32) :
    k0_pay54 (F := Ideal) (k0_pay8 x0) (k0_pay9 x0) (k0_pay10 x1) old = accCol x0 x1 7#32 old := rfl

theorem col8_eq (x0 : Vec Ideal S19x128x128 .f32) (x1 : Vec Ideal S128x128 .i32) (old : Vec Ideal S19x1 .f32) :
    k0_pay59 (F := Ideal) (k0_pay8 x0) (k0_pay9 x0) (k0_pay10 x1) k0_pay55 old = accCol x0 x1 8#32 old := rfl

theorem col9_eq (x0 : Vec Ideal S19x128x128 .f32) (x1 : Vec Ideal S128x128 .i32) (old : Vec Ideal S19x1 .f32) :
    k0_pay3 (F := Ideal) (k0_pay10 x1) (k0_pay60 (k0_pay8 x0) (k0_pay9 x0)) old = accCol x0 x1 9#32 old := rfl

/-- The block function the ten column stores of a later point are pieces of. -/
def accG (x0 : Vec Ideal S19x128x128 .f32) (x1 : Vec Ideal S128x128 .i32) (xo4 : Vec Ideal S19x10 .f32) :
    S19x10.Idx → EReal := fun j => xo4 j + tileAcc x0 x1 j

/-- The column-b update over the old block's column b is the block function at the piece's place: row k of the
    piece sits at (k, b). -/
theorem piece_B (x0 : Vec Ideal S19x128x128 .f32) (x1 : Vec Ideal S128x128 .i32) (xo4 : Vec Ideal S19x10 .f32)
    (b : ℕ) (inb : ∀ a, (![0, b] : Fin 2 → ℕ) a + S19x1.size a ≤ S19x10.size a) (x : S19x1.Idx) :
    accCol x0 x1 (BitVec.ofNat 32 b) (View.ld xo4 (Rect.unit (s := S19x10) ![0, b] S19x1.size inb)) x
      = accG x0 x1 xo4 ((Rect.unit (s := S19x10) ![0, b] S19x1.size inb).emb x) := by
  rw [accCol_apply]
  have e0 : ((Rect.unit (s := S19x10) ![0, b] S19x1.size inb).emb x) 0 = x 0 := by
    apply Fin.ext
    show 0 + 1 * (x 0).val = (x 0).val
    omega
  have e1 : (((Rect.unit (s := S19x10) ![0, b] S19x1.size inb).emb x) 1).val = b := by
    have h1 : (x 1).val < 1 := (x 1).isLt
    show b + 1 * (x 1).val = b
    omega
  unfold accG tileAcc binWord
  rw [e0, e1]
  rfl

/-- A list of stores (last made first) in which, going back from the last, the store that zeroes the whole block
    comes before any store to column b: every store before it is a whole column other than b. -/
inductive ZeroAt (b : ℕ) : List (View.Piece (Elt Ideal) S19x10 .f32) → Prop
  | zero (inb : ∀ a, (![0, 0] : Fin 2 → ℕ) a + S19x10.size a ≤ S19x10.size a)
      (L : List (View.Piece (Elt Ideal) S19x10 .f32)) :
      ZeroAt b (⟨Rect.unit (s := S19x10) ![0, 0] S19x10.size inb, k0_pay6 (F := Ideal)⟩ :: L)
  | skip (b' : ℕ) (h : b' ≠ b) (inb' : ∀ a, (![0, b'] : Fin 2 → ℕ) a + S19x1.size a ≤ S19x10.size a)
      (w : (Rect.unit (s := S19x10) ![0, b'] S19x1.size inb').shape.Idx → Elt Ideal .f32)
      (L : List (View.Piece (Elt Ideal) S19x10 .f32)) :
      ZeroAt b L → ZeroAt b (⟨Rect.unit (s := S19x10) ![0, b'] S19x1.size inb', w⟩ :: L)

/-- Such a list leaves 0 all along column b. -/
theorem ZeroAt.canon_eq {b : ℕ} {L : List (View.Piece (Elt Ideal) S19x10 .f32)} (h : ZeroAt b L)
    (inb : ∀ a, (![0, b] : Fin 2 → ℕ) a + S19x1.size a ≤ S19x10.size a) (x : S19x1.Idx) :
    View.canon L ((Rect.unit (s := S19x10) ![0, b] S19x1.size inb).toLoadRect.idx x) = (0 : EReal) := by
  induction h with
  | zero inb0 L =>
    rw [View.canon_cons_unit_zero (S := S19x10) hz2]
    exact Ideal.ofBits_zero_f32
  | skip b' hne inb' w L _ ih =>
    rw [View.canon_cons_of_not_mem _ _ ?_]
    · exact ih
    · intro hm
      have hm' : (Rect.unit (s := S19x10) ![0, b] S19x1.size inb).toLoadRect.idx x
          ∈ (Rect.unit (s := S19x10) ![0, b'] S19x1.size inb').set := hm
      have h1 := (Rect.mem_set_unit.mp hm') 1
      have hx : (x 1).val < 1 := (x 1).isLt
      have e : (((Rect.unit (s := S19x10) ![0, b] S19x1.size inb).toLoadRect.idx x) 1).val = b + 1 * (x 1).val := rfl
      rw [e] at h1
      have h2 : b' ≤ b + 1 * (x 1).val ∧ b + 1 * (x 1).val < b' + 1 := h1
      omega

/-- So the column b loaded back from such a list is 0. -/
theorem readCov_zero (v : View sig .tc .vmem S19x10 .f32) {b : ℕ} {L : List (View.Piece (Elt Ideal) S19x10 .f32)}
    (h : ZeroAt b L) (inb : ∀ a, (![0, b] : Fin 2 → ℕ) a + S19x1.size a ≤ S19x10.size a) :
    v.readCov L (Rect.unit (s := S19x10) ![0, b] S19x1.size inb).toLoadRect = fun _ => (0 : Elt Ideal .f32) := by
  rw [View.readCov_eq_canon']
  funext x
  exact h.canon_eq inb x

/-- The column-b update over a zero column is the tile's addend at the piece's place. -/
theorem piece_A (x0 : Vec Ideal S19x128x128 .f32) (x1 : Vec Ideal S128x128 .i32)
    (b : ℕ) (inb : ∀ a, (![0, b] : Fin 2 → ℕ) a + S19x1.size a ≤ S19x10.size a)
    (old : Vec Ideal S19x1 .f32) (hold : old = fun _ => (0 : Elt Ideal .f32)) (x : S19x1.Idx) :
    accCol x0 x1 (BitVec.ofNat 32 b) old x
      = tileAcc x0 x1 ((Rect.unit (s := S19x10) ![0, b] S19x1.size inb).emb x) := by
  subst hold
  rw [accCol_apply]
  have e0 : ((Rect.unit (s := S19x10) ![0, b] S19x1.size inb).emb x) 0 = x 0 := by
    apply Fin.ext
    show 0 + 1 * (x 0).val = (x 0).val
    omega
  have e1 : (((Rect.unit (s := S19x10) ![0, b] S19x1.size inb).emb x) 1).val = b := by
    have h1 : (x 1).val < 1 := (x 1).isLt
    show b + 1 * (x 1).val = b
    omega
  unfold tileAcc binWord
  rw [e0, e1]
  exact zero_add _

/-- An index of the block lies in the column its second coordinate names. -/
theorem col_mem (j : S19x10.Idx) (b : ℕ) (hb : (j 1).val = b)
    (inb : ∀ a, (![0, b] : Fin 2 → ℕ) a + S19x1.size a ≤ S19x10.size a) :
    j ∈ (Rect.unit (s := S19x10) ![0, b] S19x1.size inb).set := by
  rw [Rect.mem_set_unit]
  intro a
  fin_cases a
  · have h0 : (j 0).val < 19 := (j 0).isLt
    show 0 ≤ (j 0).val ∧ (j 0).val < 0 + 19
    omega
  · show b ≤ (j 1).val ∧ (j 1).val < b + 1
    omega

end KPiece4

open KPiece4

/-- The first point: the tile's addend. -/
theorem out_A_4 (c : Dev nD) (i : grid0.Coords) (arg2 : Memref sig .tc .vmem S19x128x128 .f32) (harg2 : arg2.IsWhole) (arg3 : Memref sig .tc .vmem S128x128 .i32) (harg3 : arg3.IsWhole) (arg4 : Memref sig .tc .vmem S19x10 .f32) (harg4 : arg4.IsWhole) (arg5 : Memref sig .tc .vmem S19x10 .f32) (harg5 : arg5.IsWhole) (arg6 : Memref sig .tc .vmem S19x10 .f32) (harg6 : arg6.IsWhole) (hc0 : cond0_0 i)
    (x0 : Vec Ideal S19x128x128 .f32) (x1 : Vec Ideal S128x128 .i32) :
    out0_A_4 (F := Ideal) c i arg2 harg2 arg3 harg3 arg4 harg4 arg5 harg5 arg6 harg6 hc0 x0 x1 = tileAcc x0 x1 := by
  unfold out0_A_4
  rw [View.read_writes_eq_canon _ _ _ (cover0_A_4 c i arg2 harg2 arg3 harg3 arg4 harg4 arg5 harg5 arg6 harg6 hc0 x0 x1)]
  funext j
  unfold kernelRun0_A
  dsimp only
  sl_unfold_words
  simp only [View.readAt_eq_ld, harg2.read_unread, harg3.read_unread,
    View.ld_unit_zero (S := S19x128x128) hz3, View.ld_unit_zero (S := S128x128) hz2]
  rw [col0_eq, col1_eq, col2_eq, col3_eq, col4_eq, col5_eq, col6_eq, col7_eq, col8_eq, col9_eq]
  refine View.canon_append_of_pieces (tileAcc x0 x1) [_] [_, _, _, _, _, _, _, _, _, _] ?_ j ?_
  · intro p hp
    simp only [List.mem_cons, List.not_mem_nil, or_false] at hp
    rcases hp with rfl | rfl | rfl | rfl | rfl | rfl | rfl | rfl | rfl | rfl
    · exact piece_A x0 x1 9 inb_S19x10_S19x1_0_9 _ (readCov_zero _ (.skip 8 (by decide) _ _ _ (.skip 7 (by decide) _ _ _ (.skip 6 (by decide) _ _ _ (.skip 5 (by decide) _ _ _ (.skip 4 (by decide) _ _ _ (.skip 3 (by decide) _ _ _ (.skip 2 (by decide) _ _ _ (.skip 1 (by decide) _ _ _ (.skip 0 (by decide) _ _ _ (.zero _ _)))))))))) inb_S19x10_S19x1_0_9)
    · exact piece_A x0 x1 8 inb_S19x10_S19x1_0_8 _ (readCov_zero _ (.skip 7 (by decide) _ _ _ (.skip 6 (by decide) _ _ _ (.skip 5 (by decide) _ _ _ (.skip 4 (by decide) _ _ _ (.skip 3 (by decide) _ _ _ (.skip 2 (by decide) _ _ _ (.skip 1 (by decide) _ _ _ (.skip 0 (by decide) _ _ _ (.zero _ _))))))))) inb_S19x10_S19x1_0_8)
    · exact piece_A x0 x1 7 inb_S19x10_S19x1_0_7 _ (readCov_zero _ (.skip 6 (by decide) _ _ _ (.skip 5 (by decide) _ _ _ (.skip 4 (by decide) _ _ _ (.skip 3 (by decide) _ _ _ (.skip 2 (by decide) _ _ _ (.skip 1 (by decide) _ _ _ (.skip 0 (by decide) _ _ _ (.zero _ _)))))))) inb_S19x10_S19x1_0_7)
    · exact piece_A x0 x1 6 inb_S19x10_S19x1_0_6 _ (readCov_zero _ (.skip 5 (by decide) _ _ _ (.skip 4 (by decide) _ _ _ (.skip 3 (by decide) _ _ _ (.skip 2 (by decide) _ _ _ (.skip 1 (by decide) _ _ _ (.skip 0 (by decide) _ _ _ (.zero _ _))))))) inb_S19x10_S19x1_0_6)
    · exact piece_A x0 x1 5 inb_S19x10_S19x1_0_5 _ (readCov_zero _ (.skip 4 (by decide) _ _ _ (.skip 3 (by decide) _ _ _ (.skip 2 (by decide) _ _ _ (.skip 1 (by decide) _ _ _ (.skip 0 (by decide) _ _ _ (.zero _ _)))))) inb_S19x10_S19x1_0_5)
    · exact piece_A x0 x1 4 inb_S19x10_S19x1_0_4 _ (readCov_zero _ (.skip 3 (by decide) _ _ _ (.skip 2 (by decide) _ _ _ (.skip 1 (by decide) _ _ _ (.skip 0 (by decide) _ _ _ (.zero _ _))))) inb_S19x10_S19x1_0_4)
    · exact piece_A x0 x1 3 inb_S19x10_S19x1_0_3 _ (readCov_zero _ (.skip 2 (by decide) _ _ _ (.skip 1 (by decide) _ _ _ (.skip 0 (by decide) _ _ _ (.zero _ _)))) inb_S19x10_S19x1_0_3)
    · exact piece_A x0 x1 2 inb_S19x10_S19x1_0_2 _ (readCov_zero _ (.skip 1 (by decide) _ _ _ (.skip 0 (by decide) _ _ _ (.zero _ _))) inb_S19x10_S19x1_0_2)
    · exact piece_A x0 x1 1 inb_S19x10_S19x1_0_1 _ (readCov_zero _ (.skip 0 (by decide) _ _ _ (.zero _ _)) inb_S19x10_S19x1_0_1)
    · exact piece_A x0 x1 0 inb_S19x10_S19x1_0_0 _ (readCov_zero _ (.zero _ _) inb_S19x10_S19x1_0_0)
  · have h10 : (j 1).val < 10 := (j 1).isLt
    rcases (by omega : (j 1).val = 9 ∨ (j 1).val = 8 ∨ (j 1).val = 7 ∨ (j 1).val = 6 ∨ (j 1).val = 5 ∨ (j 1).val = 4
        ∨ (j 1).val = 3 ∨ (j 1).val = 2 ∨ (j 1).val = 1 ∨ (j 1).val = 0) with h | h | h | h | h | h | h | h | h | h
    · exact ⟨_, (.head _), col_mem j 9 h inb_S19x10_S19x1_0_9⟩
    · exact ⟨_, (.tail _ (.head _)), col_mem j 8 h inb_S19x10_S19x1_0_8⟩
    · exact ⟨_, (.tail _ (.tail _ (.head _))), col_mem j 7 h inb_S19x10_S19x1_0_7⟩
    · exact ⟨_, (.tail _ (.tail _ (.tail _ (.head _)))), col_mem j 6 h inb_S19x10_S19x1_0_6⟩
    · exact ⟨_, (.tail _ (.tail _ (.tail _ (.tail _ (.head _))))), col_mem j 5 h inb_S19x10_S19x1_0_5⟩
    · exact ⟨_, (.tail _ (.tail _ (.tail _ (.tail _ (.tail _ (.head _)))))), col_mem j 4 h inb_S19x10_S19x1_0_4⟩
    · exact ⟨_, (.tail _ (.tail _ (.tail _ (.tail _ (.tail _ (.tail _ (.head _))))))), col_mem j 3 h inb_S19x10_S19x1_0_3⟩
    · exact ⟨_, (.tail _ (.tail _ (.tail _ (.tail _ (.tail _ (.tail _ (.tail _ (.head _)))))))), col_mem j 2 h inb_S19x10_S19x1_0_2⟩
    · exact ⟨_, (.tail _ (.tail _ (.tail _ (.tail _ (.tail _ (.tail _ (.tail _ (.tail _ (.head _))))))))), col_mem j 1 h inb_S19x10_S19x1_0_1⟩
    · exact ⟨_, (.tail _ (.tail _ (.tail _ (.tail _ (.tail _ (.tail _ (.tail _ (.tail _ (.tail _ (.head _)))))))))), col_mem j 0 h inb_S19x10_S19x1_0_0⟩

/-- A later point: what the point before left, plus the tile's addend. -/
theorem out_B_4 (c : Dev nD) (i : grid0.Coords) (arg2 : Memref sig .tc .vmem S19x128x128 .f32) (harg2 : arg2.IsWhole) (arg3 : Memref sig .tc .vmem S128x128 .i32) (harg3 : arg3.IsWhole) (arg4 : Memref sig .tc .vmem S19x10 .f32) (harg4 : arg4.IsWhole) (arg5 : Memref sig .tc .vmem S19x10 .f32) (harg5 : arg5.IsWhole) (arg6 : Memref sig .tc .vmem S19x10 .f32) (harg6 : arg6.IsWhole) (hc0 : ¬cond0_0 i)
    (x0 : Vec Ideal S19x128x128 .f32) (x1 : Vec Ideal S128x128 .i32) (xo2 xo3 xo4 : Vec Ideal S19x10 .f32) :
    out0_B_4 (F := Ideal) c i arg2 harg2 arg3 harg3 arg4 harg4 arg5 harg5 arg6 harg6 hc0 x0 x1 xo2 xo3 xo4 = fun j => xo4 j + tileAcc x0 x1 j := by
  unfold out0_B_4
  rw [View.read_writes_eq_canon _ _ _ (cover0_B_4 c i arg2 harg2 arg3 harg3 arg4 harg4 arg5 harg5 arg6 harg6 hc0 x0 x1 xo2 xo3 xo4)]
  funext j
  have hcov := cover0_B_4 c i arg2 harg2 arg3 harg3 arg4 harg4 arg5 harg5 arg6 harg6 hc0 x0 x1 xo2 xo3 xo4 j
  revert hcov
  unfold kernelRun0_B
  dsimp only
  sl_unfold_words
  simp only [View.readAt_eq_ld, harg2.read_unread, harg3.read_unread, harg6.read_unread,
    View.ld_unit_zero (S := S19x128x128) hz3, View.ld_unit_zero (S := S128x128) hz2]
  rw [col0_eq, col1_eq, col2_eq, col3_eq, col4_eq, col5_eq, col6_eq, col7_eq, col8_eq, col9_eq]
  intro hcov
  refine View.canon_apply_of_pieces (accG x0 x1 xo4) _ ?_ j hcov
  intro p hp
  simp only [List.mem_cons, List.not_mem_nil, or_false] at hp
  rcases hp with rfl | rfl | rfl | rfl | rfl | rfl | rfl | rfl | rfl | rfl
  · exact piece_B x0 x1 xo4 9 _
  · exact piece_B x0 x1 xo4 8 _
  · exact piece_B x0 x1 xo4 7 _
  · exact piece_B x0 x1 xo4 6 _
  · exact piece_B x0 x1 xo4 5 _
  · exact piece_B x0 x1 xo4 4 _
  · exact piece_B x0 x1 xo4 3 _
  · exact piece_B x0 x1 xo4 2 _
  · exact piece_B x0 x1 xo4 1 _
  · exact piece_B x0 x1 xo4 0 _

end Cert.Hist.K

end
-- ==== Proof.KBlocks.lean ====
/-
  The kernel's two input windows, read at an index: tile s = 16 i + j of the 8 x 16 grid holds rows 128 i ... 128 i + 127
  and columns 128 j ... 128 j + 127 of every class plane of the logits, and of the labels.
-/
import proofs.«153688_j19292993094305_1_alg».proof.Proof.KTile
import Idealize.ShloMosaic.Lib.Pipeline.Value
import Idealize.ShloMosaic.Lib.ValueLayout
import Idealize.ShloMosaic.Lib.StableHlo.Run

set_option maxRecDepth 16384

noncomputable section

namespace Cert.Hist.K

open Idealize.ShloMosaic Idealize.ShloMosaic.TcCoe Idealize.ShloMosaic.ValueIdx Idealize.SL.Sem
open Cert.KernelIdeal Cert.KernelIdeal.Gen Cert.Hist

variable (m : (ℓ : Loc nD τ sig) → Buf (Elt Ideal) ℓ)

/-- The grid has 128 points. -/
theorem lt128 (t : Fin cfg0.N) : t.val < 128 := lt_of_lt_of_eq t.isLt N_0

/-- The two input blocks at grid point t, at their literal types. -/
abbrev xblk (c : Dev nD) (t : Fin cfg0.N) : Vec Ideal S19x128x128 .f32 := iblk m c 0 t
abbrev tblk (c : Dev nD) (t : Fin cfg0.N) : Vec Ideal S128x128 .i32 := iblk m c 1 t

/-- The logits and the labels as launched. -/
abbrev X (c : Dev nD) : A4.Idx → EReal := m ((c.tc : Thread nD τ).loc main_arg0)
abbrev T (c : Dev nD) : L3.Idx → BitVec 32 := m ((c.tc : Thread nD τ).loc main_arg1)

/-- The image row and column of pixel (y, x) of tile s. -/
def rowOf (s : ℕ) (hs : s < 128) (y : Fin 128) : Fin 1024 := ⟨128 * (s / 16) + y.val, by omega⟩
def colOf (s : ℕ) (hs : s < 128) (x : Fin 128) : Fin 2048 := ⟨128 * (s % 16) + x.val, by omega⟩

/-- The logits as the region finds them: the launched array with its leading unit axis dropped. -/
private theorem V_logits (c : Dev nD) :
    (V m c main_v0 : S19x1024x2048.Idx → EReal)
      = shapeCast S19x1024x2048 (m ((c.tc : Thread nD τ).loc main_arg0)) shapeCasts_S1x19x1024x2048_S19x1024x2048 := by
  show StableHlo.after hostOps0 (fun b => m (c, b)) (Proc.devRef .tc main_v0) = _
  after_results
  rfl

/-- The labels as the region finds them: the launched array with its leading unit axis dropped. -/
private theorem V_labels (c : Dev nD) :
    (V m c main_v1 : S1024x2048.Idx → BitVec 32)
      = shapeCast S1024x2048 (m ((c.tc : Thread nD τ).loc main_arg1)) shapeCasts_S1x1024x2048_S1024x2048 := by
  show StableHlo.after hostOps0 (fun b => m (c, b)) (Proc.devRef .tc main_v1) = _
  after_results
  rfl

/-- Grid point t = 16 i + j fetches the logits block (0, i, j): all classes, row block i, column block j. -/
private theorem logits_block_index : ∀ t : Fin grid0.N,
    win0_0.index t (0 : Fin 3) = 0 ∧ win0_0.index t 1 = t.val / 16 ∧ win0_0.index t 2 = t.val % 16 := by
  decide +kernel

/-- Grid point t = 16 i + j fetches the labels block (i, j). -/
private theorem labels_block_index : ∀ t : Fin grid0.N,
    win0_1.index t (0 : Fin 2) = t.val / 16 ∧ win0_1.index t 1 = t.val % 16 := by
  decide +kernel

/-- The logits block at point t, at (k, y, x), is the logits at (0, k, row, column). -/
theorem xblk_apply (c : Dev nD) (t : Fin cfg0.N) (k : Fin 19) (y x : Fin 128) :
    xblk m c t (ix3 k y x) = X m c (ix4 0 k (rowOf t.val (lt128 t) y) (colOf t.val (lt128 t) x)) := by
  obtain ⟨h0, h1, h2⟩ := logits_block_index t
  -- the block's element (k, y, x) sits in the array at block index times block size plus the place inside the block
  have e : ((cfg0.win 0).blk t).view.emb (ix3 k y x)
      = (ix3 k (rowOf t.val (lt128 t) y) (colOf t.val (lt128 t) x) : S19x1024x2048.Idx) := by
    funext a
    apply Fin.ext
    match a with
    | ⟨0, _⟩ => show win0_0.index t 0 * 19 + 1 * k.val = k.val; rw [h0]; omega
    | ⟨1, _⟩ => show win0_0.index t 1 * 128 + 1 * y.val = 128 * (t.val / 16) + y.val; rw [h1]; omega
    | ⟨2, _⟩ => show win0_0.index t 2 * 128 + 1 * x.val = 128 * (t.val % 16) + x.val; rw [h2]; omega
  unfold xblk iblk
  rw [View.read_apply]
  show V m c main_v0 _ = _
  rw [V_logits, e]
  exact shapeCast_1abc_abc_apply _ _ k _ _

/-- The labels block at point t, at (y, x), is the labels at (0, row, column). -/
theorem tblk_apply (c : Dev nD) (t : Fin cfg0.N) (y x : Fin 128) :
    tblk m c t (ix2 y x) = T m c (ix3 0 (rowOf t.val (lt128 t) y) (colOf t.val (lt128 t) x)) := by
  obtain ⟨h0, h1⟩ := labels_block_index t
  have e : ((cfg0.win 1).blk t).view.emb (ix2 y x)
      = (ix2 (rowOf t.val (lt128 t) y) (colOf t.val (lt128 t) x) : S1024x2048.Idx) := by
    funext a
    apply Fin.ext
    match a with
    | ⟨0, _⟩ => show win0_1.index t 0 * 128 + 1 * y.val = 128 * (t.val / 16) + y.val; rw [h0]; omega
    | ⟨1, _⟩ => show win0_1.index t 1 * 128 + 1 * x.val = 128 * (t.val % 16) + x.val; rw [h1]; omega
  unfold tblk iblk
  rw [View.read_apply]
  show V m c main_v1 _ = _
  rw [V_labels, e]
  exact shapeCast_1ab_ab_apply _ _ _ _

/-- So the column of the tile's pixel (y, x) is the image's column there. -/
theorem tcol_xblk (c : Dev nD) (t : Fin cfg0.N) (y x : Fin 128) :
    tcol (xblk m c t) y x = colAt (X m c) (rowOf t.val (lt128 t) y) (colOf t.val (lt128 t) x) :=
  funext fun k => xblk_apply m c t k y x

end Cert.Hist.K

end
-- ==== Proof.KAccum.lean ====
/-
  The three histogram blocks after grid point n: the sum of the addends of tiles 0 ... n (the block is zeroed at
  point 0 only and never written back before the last point).
-/
import proofs.«153688_j19292993094305_1_alg».proof.Proof.KPiece2
import proofs.«153688_j19292993094305_1_alg».proof.Proof.KPiece3
import proofs.«153688_j19292993094305_1_alg».proof.Proof.KPiece4
import proofs.«153688_j19292993094305_1_alg».proof.Proof.KBlocks

set_option maxRecDepth 16384

noncomputable section

namespace Cert.Hist.K

open Idealize.ShloMosaic Idealize.ShloMosaic.TcCoe Idealize.ShloMosaic.ValueIdx Idealize.SL.Sem
open Cert.KernelIdeal Cert.KernelIdeal.Gen Cert.Hist

variable (m : (ℓ : Loc nD τ sig) → Buf (Elt Ideal) ℓ)

/-- Point s ≤ n of the grid, as a point. -/
abbrev pt {n : ℕ} (hn : n < cfg0.N) (s : Fin (n + 1)) : Fin cfg0.N :=
  ⟨s.val, lt_of_le_of_lt (Nat.le_of_lt_succ s.isLt) hn⟩

/-- At the first point the three blocks hold the tile's three addends. -/
theorem step_first (c : Dev nD) (t : Fin cfg0.N) (h0 : t.val % 128 = 0) :
    outsAt0 m c t.val t.isLt
      = (tileConf (xblk m c t), tilePred (xblk m c t), tileAcc (xblk m c t) (tblk m c t)) := by
  rw [outsAt0_A m c t h0]
  rw [out_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
    out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
    out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)]

/-- At a later point each block holds what the point before left plus the tile's addend. -/
theorem step_later (c : Dev nD) (t : Fin cfg0.N) (h0 : ¬t.val % 128 = 0) :
    outsAt0 m c t.val t.isLt
      = (fun j => (outsAt0 m c (t.val - 1) (Nat.lt_of_le_of_lt (Nat.sub_le _ _) t.isLt)).1 j + tileConf (xblk m c t) j,
         fun j => (outsAt0 m c (t.val - 1) (Nat.lt_of_le_of_lt (Nat.sub_le _ _) t.isLt)).2.1 j + tilePred (xblk m c t) j,
         fun j => (outsAt0 m c (t.val - 1) (Nat.lt_of_le_of_lt (Nat.sub_le _ _) t.isLt)).2.2 j + tileAcc (xblk m c t) (tblk m c t) j) := by
  rw [outsAt0_B m c t h0]
  rw [out_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]

/-- The three blocks after point n, together: the sums of the addends of tiles 0 ... n. -/
theorem acc_all (c : Dev nD) : ∀ (n : ℕ) (hn : n < cfg0.N),
    outsAt0 m c n hn
      = (fun j => ∑ s : Fin (n + 1), tileConf (xblk m c (pt hn s)) j,
         fun j => ∑ s : Fin (n + 1), tilePred (xblk m c (pt hn s)) j,
         fun j => ∑ s : Fin (n + 1), tileAcc (xblk m c (pt hn s)) (tblk m c (pt hn s)) j)
  | 0, hn => by
    refine (step_first m c ⟨0, hn⟩ rfl).trans ?_
    refine congrArg₂ Prod.mk ?_ (congrArg₂ Prod.mk ?_ ?_)
    · funext j
      exact (Fin.sum_univ_one (fun s : Fin (0 + 1) => tileConf (xblk m c (pt hn s)) j)).symm
    · funext j
      exact (Fin.sum_univ_one (fun s : Fin (0 + 1) => tilePred (xblk m c (pt hn s)) j)).symm
    · funext j
      exact (Fin.sum_univ_one (fun s : Fin (0 + 1) => tileAcc (xblk m c (pt hn s)) (tblk m c (pt hn s)) j)).symm
  | n + 1, hn => by
    have hN : cfg0.N = 128 := N_0
    have hB : ¬(⟨n + 1, hn⟩ : Fin cfg0.N).val % 128 = 0 := by dsimp only; omega
    refine (step_later m c ⟨n + 1, hn⟩ hB).trans ?_
    have ih := acc_all c n (Nat.lt_of_succ_lt hn)
    refine congrArg₂ Prod.mk ?_ (congrArg₂ Prod.mk ?_ ?_)
    · funext j
      show (outsAt0 m c n (Nat.lt_of_succ_lt hn)).1 j + _ = _
      rw [ih, Fin.sum_univ_castSucc]
      rfl
    · funext j
      show (outsAt0 m c n (Nat.lt_of_succ_lt hn)).2.1 j + _ = _
      rw [ih, Fin.sum_univ_castSucc]
      rfl
    · funext j
      show (outsAt0 m c n (Nat.lt_of_succ_lt hn)).2.2 j + _ = _
      rw [ih, Fin.sum_univ_castSucc]
      rfl

theorem acc_conf (c : Dev nD) (n : ℕ) (hn : n < cfg0.N) (j : S19x10.Idx) :
    (outsAt0 m c n hn).1 j = ∑ s : Fin (n + 1), tileConf (xblk m c (pt hn s)) j := by
  rw [acc_all m c n hn]

theorem acc_pred (c : Dev nD) (n : ℕ) (hn : n < cfg0.N) (j : S19x10.Idx) :
    (outsAt0 m c n hn).2.1 j = ∑ s : Fin (n + 1), tilePred (xblk m c (pt hn s)) j := by
  rw [acc_all m c n hn]

theorem acc_acc (c : Dev nD) (n : ℕ) (hn : n < cfg0.N) (j : S19x10.Idx) :
    (outsAt0 m c n hn).2.2 j = ∑ s : Fin (n + 1), tileAcc (xblk m c (pt hn s)) (tblk m c (pt hn s)) j := by
  rw [acc_all m c n hn]

end Cert.Hist.K

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.LibTileSum.lean ====
/-
  Sums over a tiled rectangle and over a flattened box (general lemmas: nothing here depends on a program).

  A P x Q grid of tiles of A x B entries, tile s = Q i + j holding rows A i ... A i + A - 1 and columns
  B j ... B j + B - 1, lists every entry of the (A P) x (B Q) rectangle once; and the row-major position
  e = (k H + h) W + w lists every entry of a K x H x W box once. So a sum over the tiles and their entries, or over
  the flat positions, is the sum over the rectangle, or the box, in any commutative monoid.
-/
import Mathlib.Algebra.BigOperators.Fin
import Mathlib.Algebra.BigOperators.Intervals
import proofs.«153688_j19292993094305_1_alg».proof.Proof.LibBlockSum

namespace TileSum

/-- A sum over the positions s < P Q of a term in the quotient s / Q and the remainder s % Q is the double sum
over the pairs (i, j), i < P, j < Q: the position s = Q i + j has quotient i and remainder j. -/
theorem sum_divmod {M : Type*} [AddCommMonoid M] (P Q : ℕ) (F : ℕ → ℕ → M) :
    ∑ s : Fin (P * Q), F (s.val / Q) (s.val % Q) = ∑ i : Fin P, ∑ j : Fin Q, F i.val j.val := by
  -- The positions are listed block by block, Q to a block; in block i the j-th one is Q i + j.
  rw [Fin.sum_univ_eq_sum_range (fun s => F (s / Q) (s % Q)) (P * Q), Nat.mul_comm P Q,
    ← Fin.sum_univ_eq_sum_range (fun s => F (s / Q) (s % Q)) (Q * P),
    ← BlockSum.sum_blocks Q P (fun s => F (s / Q) (s % Q)),
    Fin.sum_univ_eq_sum_range (fun i => ∑ j : Fin Q, F i j.val) P]
  refine Finset.sum_congr rfl (fun i _ => Finset.sum_congr rfl (fun j _ => ?_))
  have hQ : 0 < Q := j.pos
  show F ((Q * i + j.val) / Q) ((Q * i + j.val) % Q) = F i j.val
  rw [Nat.mul_add_div hQ, Nat.div_eq_of_lt j.isLt, Nat.add_zero, Nat.mul_add_mod,
    Nat.mod_eq_of_lt j.isLt]

/-- The sum over the tiles of the sums over each tile's entries is the sum over the rectangle. -/
theorem sum_tiles {M : Type*} [AddCommMonoid M] (A B P Q : ℕ) (f : ℕ → ℕ → M) :
    ∑ s : Fin (P * Q), ∑ y : Fin A, ∑ x : Fin B, f (A * (s.val / Q) + y.val) (B * (s.val % Q) + x.val)
      = ∑ h : Fin (A * P), ∑ w : Fin (B * Q), f h.val w.val := by
  -- Tile s is tile (i, j) = (s / Q, s % Q) of the grid.
  rw [sum_divmod P Q (fun i j => ∑ y : Fin A, ∑ x : Fin B, f (A * i + y.val) (B * j + x.val))]
  -- For a fixed tile row i, bring the row y inside the tile in front of the tile column j.
  have hswap : ∀ i : Fin P,
      ∑ j : Fin Q, ∑ y : Fin A, ∑ x : Fin B, f (A * i.val + y.val) (B * j.val + x.val)
        = ∑ y : Fin A, ∑ j : Fin Q, ∑ x : Fin B, f (A * i.val + y.val) (B * j.val + x.val) :=
    fun _ => Finset.sum_comm
  rw [Finset.sum_congr rfl (fun i _ => hswap i)]
  -- Rows: tile row i and row y inside it make the row h = A i + y of the rectangle.
  rw [Fin.sum_univ_eq_sum_range
      (fun i => ∑ y : Fin A, ∑ j : Fin Q, ∑ x : Fin B, f (A * i + y.val) (B * j.val + x.val)) P,
    BlockSum.sum_blocks A P (fun h => ∑ j : Fin Q, ∑ x : Fin B, f h (B * j.val + x.val))]
  -- Columns, in each row h: tile column j and column x inside it make the column w = B j + x.
  refine Finset.sum_congr rfl (fun h _ => ?_)
  rw [Fin.sum_univ_eq_sum_range (fun j => ∑ x : Fin B, f h.val (B * j + x.val)) Q,
    BlockSum.sum_blocks B Q (fun w => f h.val w)]

/-- The sum over the flat positions of a K x H x W box is the sum over its coordinates. -/
theorem sum_flat3 {M : Type*} [AddCommMonoid M] (K H W : ℕ) (g : ℕ → ℕ → ℕ → M) :
    ∑ e : Fin (K * H * W), g (e.val / (H * W)) (e.val / W % H) (e.val % W)
      = ∑ k : Fin K, ∑ h : Fin H, ∑ w : Fin W, g k.val h.val w.val := by
  -- The plane index e / (H W) is the quotient by H of the line index m = e / W.
  have hdiv : ∀ e : Fin (K * H * W),
      g (e.val / (H * W)) (e.val / W % H) (e.val % W)
        = (fun m w => g (m / H) (m % H) w) (e.val / W) (e.val % W) := by
    intro e
    show g (e.val / (H * W)) (e.val / W % H) (e.val % W) = g (e.val / W / H) (e.val / W % H) (e.val % W)
    rw [Nat.div_div_eq_div_mul, Nat.mul_comm W H]
  -- First split the position e into its line m = e / W and its place w = e % W in the line,
  -- then the line m into its plane k = m / H and its place h = m % H in the plane.
  rw [Finset.sum_congr rfl (fun e _ => hdiv e),
    sum_divmod (K * H) W (fun m w => g (m / H) (m % H) w),
    sum_divmod K H (fun k h => ∑ w : Fin W, g k h w.val)]

end TileSum
-- ==== Proof.KFinal.lean ====
/-
  The three result arrays of the kernel region after its run: the histograms of the whole image (the 128 tiles of
  128 x 128 pixels are the 1024 x 2048 pixels; each result's one block is written back at the last point).
-/
import proofs.«153688_j19292993094305_1_alg».proof.Proof.KAccum
import proofs.«153688_j19292993094305_1_alg».proof.Proof.LibTileSum

set_option maxRecDepth 16384

noncomputable section

namespace Cert.Hist.K

open Idealize.ShloMosaic Idealize.ShloMosaic.TcCoe Idealize.ShloMosaic.ValueIdx Idealize.SL.Sem
open Idealize.ShloMosaic.Pipeline (Dat)
open Cert.KernelIdeal Cert.KernelIdeal.Gen Cert.Hist

variable (m : (ℓ : Loc nD τ sig) → Buf (Elt Ideal) ℓ)

/-- The 128 tiles of 128 x 128 pixels are the 1024 x 2048 pixels: a sum over the tiles and their pixels is the sum
    over the image. -/
theorem regroup (g : Fin 1024 → Fin 2048 → EReal) (hs : ∀ s : Fin (127 + 1), s.val < 128) :
    ∑ s : Fin (127 + 1), ∑ y : Fin 128, ∑ x : Fin 128, g (rowOf s.val (hs s) y) (colOf s.val (hs s) x)
      = ∑ h : Fin 1024, ∑ w : Fin 2048, g h w := by
  let f : ℕ → ℕ → EReal := fun h w =>
    if hh : h < 1024 then (if hw : w < 2048 then g ⟨h, hh⟩ ⟨w, hw⟩ else 0) else 0
  have key := TileSum.sum_tiles (M := EReal) 128 128 8 16 f
  have hL : ∑ s : Fin (127 + 1), ∑ y : Fin 128, ∑ x : Fin 128, g (rowOf s.val (hs s) y) (colOf s.val (hs s) x)
      = ∑ s : Fin (8 * 16), ∑ y : Fin 128, ∑ x : Fin 128,
          f (128 * (s.val / 16) + y.val) (128 * (s.val % 16) + x.val) := by
    show ∑ s : Fin (8 * 16), ∑ y : Fin 128, ∑ x : Fin 128, g (rowOf s.val (hs s) y) (colOf s.val (hs s) x) = _
    refine Finset.sum_congr rfl fun s _ => Finset.sum_congr rfl fun y _ => Finset.sum_congr rfl fun x _ => ?_
    have h1 : 128 * (s.val / 16) + y.val < 1024 := by have := s.isLt; have := y.isLt; omega
    have h2 : 128 * (s.val % 16) + x.val < 2048 := by have := x.isLt; omega
    show _ = dite _ _ _
    rw [dif_pos h1, dif_pos h2]
    rfl
  have hR : ∑ h : Fin (128 * 8), ∑ w : Fin (128 * 16), f h.val w.val = ∑ h : Fin 1024, ∑ w : Fin 2048, g h w := by
    show ∑ h : Fin 1024, ∑ w : Fin 2048, f h.val w.val = _
    refine Finset.sum_congr rfl fun h _ => Finset.sum_congr rfl fun w _ => ?_
    show dite _ _ _ = _
    rw [dif_pos h.isLt, dif_pos w.isLt]
  exact hL.trans (key.trans hR)

/-- After the last point the three blocks hold the histograms of the whole image. -/
theorem conf_total (c : Dev nD) (hn : 127 < cfg0.N) (j : S19x10.Idx) :
    (outsAt0 m c 127 hn).1 j = confH (X m c) j := by
  rw [acc_conf m c 127 hn j]
  unfold tileConf confH
  simp only [tcol_xblk]
  exact regroup (fun h w => confAdd (colAt (X m c) h w) (j 0) (binWord j)) (fun s => lt128 (pt hn s))

theorem pred_total (c : Dev nD) (hn : 127 < cfg0.N) (j : S19x10.Idx) :
    (outsAt0 m c 127 hn).2.1 j = predH (X m c) j := by
  rw [acc_pred m c 127 hn j]
  unfold tilePred predH
  simp only [tcol_xblk]
  exact regroup (fun h w => predAdd (colAt (X m c) h w) (j 0) (binWord j)) (fun s => lt128 (pt hn s))

theorem acc_total (c : Dev nD) (hn : 127 < cfg0.N) (j : S19x10.Idx) :
    (outsAt0 m c 127 hn).2.2 j = accH (X m c) (T m c) j := by
  rw [acc_acc m c 127 hn j]
  unfold tileAcc accH
  simp only [tcol_xblk, tblk_apply]
  exact regroup (fun h w => accAdd (colAt (X m c) h w) (T m c (ix3 0 h w)) (j 0) (binWord j))
    (fun s => lt128 (pt hn s))

/-- The last point of the grid. -/
abbrev tLast : Fin cfg0.N := ⟨127, by rw [show cfg0.N = 128 from N_0]; decide⟩

/-- The one write-back of result 0, at the last point, writes the whole block. -/
theorem flushed_conf (c : Dev nD) (t : Fin cfg0.N) (hf : (cfg0.win 2).flush t = true) :
    (dats m 0 c).flushed 2 t = ((cfg0.win 2).blk t).view.read (Elt Ideal) (confH (X m c)) := by
  have hN : cfg0.N = 128 := N_0
  have h127 : t.val = 127 := by have := (flush0_2 t).mp hf; have := t.isLt; omega
  obtain rfl : t = tLast := Fin.ext h127
  show (cfg0.win 2).cut (grid0.coords tLast) ((dats m 0 c).after 2 tLast) = _
  rw [after0_2, show (outsAt0 m c tLast.val tLast.isLt).1 = confH (X m c) from funext (conf_total m c tLast.isLt)]
  have hz' : (fun a => win0_2.index tLast a * main_v2_0.ty.shape.size a) = fun _ => 0 :=
    funext fun a => by fin_cases a <;> decide +kernel
  exact (Memref.read_access_unit_zero (Elt Ideal) main_v2_0 hz' (fun a => by rw [congrFun hz' a]; simp) (confH (X m c))).symm

/-- and that block is the whole array. -/
theorem cover_conf (c : Dev nD)
    (i : ((cfg0.win 2).arr.view.loc (c.tc : Thread nD τ)).2.ty.Idx) :
    ∃ t : Fin cfg0.N, (cfg0.win 2).flush t = true ∧ i ∈ ((cfg0.win 2).blk t).view.set :=
  ⟨tLast, (flush0_2 tLast).mpr rfl, by
    show i ∈ ((View.whole main_v2_0).slice (win0_2.rect tLast)).set
    rw [View.set_slice_whole, Rect.mem_set_unit]
    intro a
    have h0 : (i 0 : Nat) < 19 := (i 0).isLt
    have h1 : (i 1 : Nat) < 10 := (i 1).isLt
    match a with
    | ⟨0, _⟩ =>
      show win0_2.index tLast 0 * win0_2.size 0 ≤ (i 0 : Nat)
        ∧ (i 0 : Nat) < win0_2.index tLast 0 * win0_2.size 0 + win0_2.xsize (grid0.coords tLast) 0
      rw [show win0_2.index tLast 0 * win0_2.size 0 = 0 from by decide +kernel,
        show win0_2.xsize (grid0.coords tLast) 0 = 19 from by decide +kernel]
      omega
    | ⟨1, _⟩ =>
      show win0_2.index tLast 1 * win0_2.size 1 ≤ (i 1 : Nat)
        ∧ (i 1 : Nat) < win0_2.index tLast 1 * win0_2.size 1 + win0_2.xsize (grid0.coords tLast) 1
      rw [show win0_2.index tLast 1 * win0_2.size 1 = 0 from by decide +kernel,
        show win0_2.xsize (grid0.coords tLast) 1 = 10 from by decide +kernel]
      omega⟩

/-- The one write-back of result 1, at the last point, writes the whole block. -/
theorem flushed_pred (c : Dev nD) (t : Fin cfg0.N) (hf : (cfg0.win 3).flush t = true) :
    (dats m 0 c).flushed 3 t = ((cfg0.win 3).blk t).view.read (Elt Ideal) (predH (X m c)) := by
  have hN : cfg0.N = 128 := N_0
  have h127 : t.val = 127 := by have := (flush0_3 t).mp hf; have := t.isLt; omega
  obtain rfl : t = tLast := Fin.ext h127
  show (cfg0.win 3).cut (grid0.coords tLast) ((dats m 0 c).after 3 tLast) = _
  rw [after0_3, show (outsAt0 m c tLast.val tLast.isLt).2.1 = predH (X m c) from funext (pred_total m c tLast.isLt)]
  have hz' : (fun a => win0_3.index tLast a * main_v2_1.ty.shape.size a) = fun _ => 0 :=
    funext fun a => by fin_cases a <;> decide +kernel
  exact (Memref.read_access_unit_zero (Elt Ideal) main_v2_1 hz' (fun a => by rw [congrFun hz' a]; simp) (predH (X m c))).symm

/-- and that block is the whole array. -/
theorem cover_pred (c : Dev nD)
    (i : ((cfg0.win 3).arr.view.loc (c.tc : Thread nD τ)).2.ty.Idx) :
    ∃ t : Fin cfg0.N, (cfg0.win 3).flush t = true ∧ i ∈ ((cfg0.win 3).blk t).view.set :=
  ⟨tLast, (flush0_3 tLast).mpr rfl, by
    show i ∈ ((View.whole main_v2_1).slice (win0_3.rect tLast)).set
    rw [View.set_slice_whole, Rect.mem_set_unit]
    intro a
    have h0 : (i 0 : Nat) < 19 := (i 0).isLt
    have h1 : (i 1 : Nat) < 10 := (i 1).isLt
    match a with
    | ⟨0, _⟩ =>
      show win0_3.index tLast 0 * win0_3.size 0 ≤ (i 0 : Nat)
        ∧ (i 0 : Nat) < win0_3.index tLast 0 * win0_3.size 0 + win0_3.xsize (grid0.coords tLast) 0
      rw [show win0_3.index tLast 0 * win0_3.size 0 = 0 from by decide +kernel,
        show win0_3.xsize (grid0.coords tLast) 0 = 19 from by decide +kernel]
      omega
    | ⟨1, _⟩ =>
      show win0_3.index tLast 1 * win0_3.size 1 ≤ (i 1 : Nat)
        ∧ (i 1 : Nat) < win0_3.index tLast 1 * win0_3.size 1 + win0_3.xsize (grid0.coords tLast) 1
      rw [show win0_3.index tLast 1 * win0_3.size 1 = 0 from by decide +kernel,
        show win0_3.xsize (grid0.coords tLast) 1 = 10 from by decide +kernel]
      omega⟩

/-- The one write-back of result 2, at the last point, writes the whole block. -/
theorem flushed_acc (c : Dev nD) (t : Fin cfg0.N) (hf : (cfg0.win 4).flush t = true) :
    (dats m 0 c).flushed 4 t = ((cfg0.win 4).blk t).view.read (Elt Ideal) (accH (X m c) (T m c)) := by
  have hN : cfg0.N = 128 := N_0
  have h127 : t.val = 127 := by have := (flush0_4 t).mp hf; have := t.isLt; omega
  obtain rfl : t = tLast := Fin.ext h127
  show (cfg0.win 4).cut (grid0.coords tLast) ((dats m 0 c).after 4 tLast) = _
  rw [after0_4, show (outsAt0 m c tLast.val tLast.isLt).2.2 = accH (X m c) (T m c) from funext (acc_total m c tLast.isLt)]
  have hz' : (fun a => win0_4.index tLast a * main_v2_2.ty.shape.size a) = fun _ => 0 :=
    funext fun a => by fin_cases a <;> decide +kernel
  exact (Memref.read_access_unit_zero (Elt Ideal) main_v2_2 hz' (fun a => by rw [congrFun hz' a]; simp) (accH (X m c) (T m c))).symm

/-- and that block is the whole array. -/
theorem cover_acc (c : Dev nD)
    (i : ((cfg0.win 4).arr.view.loc (c.tc : Thread nD τ)).2.ty.Idx) :
    ∃ t : Fin cfg0.N, (cfg0.win 4).flush t = true ∧ i ∈ ((cfg0.win 4).blk t).view.set :=
  ⟨tLast, (flush0_4 tLast).mpr rfl, by
    show i ∈ ((View.whole main_v2_2).slice (win0_4.rect tLast)).set
    rw [View.set_slice_whole, Rect.mem_set_unit]
    intro a
    have h0 : (i 0 : Nat) < 19 := (i 0).isLt
    have h1 : (i 1 : Nat) < 10 := (i 1).isLt
    match a with
    | ⟨0, _⟩ =>
      show win0_4.index tLast 0 * win0_4.size 0 ≤ (i 0 : Nat)
        ∧ (i 0 : Nat) < win0_4.index tLast 0 * win0_4.size 0 + win0_4.xsize (grid0.coords tLast) 0
      rw [show win0_4.index tLast 0 * win0_4.size 0 = 0 from by decide +kernel,
        show win0_4.xsize (grid0.coords tLast) 0 = 19 from by decide +kernel]
      omega
    | ⟨1, _⟩ =>
      show win0_4.index tLast 1 * win0_4.size 1 ≤ (i 1 : Nat)
        ∧ (i 1 : Nat) < win0_4.index tLast 1 * win0_4.size 1 + win0_4.xsize (grid0.coords tLast) 1
      rw [show win0_4.index tLast 1 * win0_4.size 1 = 0 from by decide +kernel,
        show win0_4.xsize (grid0.coords tLast) 1 = 10 from by decide +kernel]
      omega⟩

theorem final_conf (c : Dev nD) : (dats m 0 c).arrAt 2 cfg0.N = confH (X m c) :=
  (dats m 0 c).arrAt_eq_of_cover 2 (confH (X m c)) (flushed_conf m c) (cover_conf c)

theorem final_pred (c : Dev nD) : (dats m 0 c).arrAt 3 cfg0.N = predH (X m c) :=
  (dats m 0 c).arrAt_eq_of_cover 3 (predH (X m c)) (flushed_pred m c) (cover_pred c)

theorem final_acc (c : Dev nD) : (dats m 0 c).arrAt 4 cfg0.N = accH (X m c) (T m c) :=
  (dats m 0 c).arrAt_eq_of_cover 4 (accH (X m c) (T m c)) (flushed_acc m c) (cover_acc c)

end Cert.Hist.K

end
-- ==== Proof.KRun.lean ====
/-
  The idealized kernel's run: its result is the loss of the three histograms of the launched arrays; the arguments
  end unchanged.
-/
import proofs.«153688_j19292993094305_1_alg».proof.Proof.KFinal

set_option maxRecDepth 16384

noncomputable section

namespace Cert.Hist.K

open Idealize.ShloMosaic Idealize.ShloMosaic.TcCoe Idealize.ShloMosaic.ValueIdx Idealize.SL.Sem
open Idealize.ShloMosaic.Pipeline (Dat)
open Cert.KernelIdeal Cert.KernelIdeal.Gen Cert.Hist

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v15)
        = loss bcast_S_S19x10 reducesTo_S19x10_S_d0_1 h_S_ (confH (X m c)) (predH (X m c)) (accH (X m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · -- The result is no array of the region: it holds what the seventeen operations after the region compute from
    -- the region's three result arrays, and those operations are the loss.
    refine ((h c).2 main_v15 (Pipeline.mem_restRefs_of main_v15 (by decide) (by decide))).trans ?_
    -- Each of the three result arrays after the region is the histogram of the launched arrays.
    have e0 : Pipeline.withArrays (cfgs 0).spec c (V0 m c) (fun w => (dats m 0 c).arrAt w (cfgs 0).N)
        (Proc.devRef .tc main_v2_0) = confH (X m c) :=
      (Pipeline.withArrays_arr spec0 launch0.win.arr_inj c _ _ 2).trans (final_conf m c)
    have e1 : Pipeline.withArrays (cfgs 0).spec c (V0 m c) (fun w => (dats m 0 c).arrAt w (cfgs 0).N)
        (Proc.devRef .tc main_v2_1) = predH (X m c) :=
      (Pipeline.withArrays_arr spec0 launch0.win.arr_inj c _ _ 3).trans (final_pred m c)
    have e2 : Pipeline.withArrays (cfgs 0).spec c (V0 m c) (fun w => (dats m 0 c).arrAt w (cfgs 0).N)
        (Proc.devRef .tc main_v2_2) = accH (X m c) (T m c) :=
      (Pipeline.withArrays_arr spec0 launch0.win.arr_inj c _ _ 4).trans (final_acc m c)
    unfold Pipeline.afterTail₀
    show StableHlo.after hostOps1 _ (Proc.devRef .tc main_v15) = _
    after_results
    -- The composed operations are, term for term, the loss of the three arrays.
    show loss bcast_S_S19x10 reducesTo_S19x10_S_d0_1 h_S_ _ _ _ = _
    rw [e0, e1, e2]
  · -- Neither argument is an array of the region, and no operation around it writes one.
    exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.Hist.K

end
-- ==== Proof.RPixel.lean ====
/-
  The reference's arrays at one class k of one pixel (h, w): the softmax probability, the segment id
  (10 k + bin where the probability is positive, 190 otherwise) and the label match.
-/
import proofs.«153688_j19292993094305_1_alg».proof.Proof.Gen.ReferenceIdeal.Read
import proofs.«153688_j19292993094305_1_alg».proof.Proof.Pixel
import Idealize.ShloMosaic.Lib.ValueLayout

set_option maxRecDepth 16384

noncomputable section

namespace Cert.Hist.R

open Idealize.ShloMosaic Idealize.ShloMosaic.ValueIdx
open Cert.ReferenceIdeal Cert.ReferenceIdeal.Gen Cert.ReferenceIdeal.Read Cert.Hist

/-! ## The softmax probability -/

/-- The reduction of the class axis by max, at a pixel: the column's fold from minus infinity. -/
private theorem max_apply (X : (⟨S1x19x1024x2048, .f32⟩ : BufTy).Contents (Elt Ideal)) (h : Fin 1024) (w : Fin 2048) :
    val_main_v0 (F := Ideal) X (ix3 0 h w) = colMax (colAt X h w) := by
  unfold val_main_v0
  have hR : S1x19x1024x2048.Reduces [1] S1x1024x2048 := by decide
  rw [Host.reduce_eq_fold_single _ _ _ reducesTo_S1x19x1024x2048_S1x1024x2048_d1 hR]
  have e : (X ∘ hR.lift (ix3 0 h w) : Fin 19 → EReal) = colAt X h w :=
    funext fun k => congrArg X (funext fun a => Fin.ext (by
      match a with | ⟨0, _⟩ => rfl | ⟨1, _⟩ => rfl | ⟨2, _⟩ => rfl | ⟨3, _⟩ => rfl))
  unfold colMax
  exact congrArg (fun f => (Finset.univ : Finset (Fin 19)).fold max (Ideal.ofBits .f32 0xFF800000#32) f) e

/-- The fold of max is at least its starting value. -/
private theorem start_le_colMax (col : Fin 19 → EReal) : Ideal.ofBits .f32 0xFF800000#32 ≤ colMax col :=
  (Finset.le_fold_max _).mpr (Or.inl le_rfl)

/-- The max with minus infinity once more changes nothing. -/
private theorem max2_apply (X : (⟨S1x19x1024x2048, .f32⟩ : BufTy).Contents (Elt Ideal)) (h : Fin 1024) (w : Fin 2048) :
    val_main_v2 (F := Ideal) X (ix3 0 h w) = colMax (colAt X h w) := by
  rw [val_main_v2_apply, val_main_v1_apply, val_main_cst_0_apply, max_apply]
  exact max_eq_right (start_le_colMax _)

/-- exp(x_j - M) at class j of a pixel. -/
private theorem exp_apply (X : (⟨S1x19x1024x2048, .f32⟩ : BufTy).Contents (Elt Ideal)) (j : Fin 19) (h : Fin 1024) (w : Fin 2048) :
    val_main_v6 (F := Ideal) X (ix4 0 j h w) = colExp (colAt X h w) j := by
  have e : idx_main_v3 (idx_main_v4 (ix4 (0 : Fin 1) j h w)) = ix3 0 h w :=
    funext fun a => Fin.ext (by match a with | ⟨0, _⟩ => rfl | ⟨1, _⟩ => rfl | ⟨2, _⟩ => rfl)
  rw [val_main_v6_apply, val_main_v5_apply, val_main_v4_apply, val_main_v3_apply, e, max2_apply]
  rfl

/-- The softmax denominator at a pixel: the sum from zero over the classes. -/
private theorem sum_apply (X : (⟨S1x19x1024x2048, .f32⟩ : BufTy).Contents (Elt Ideal)) (h : Fin 1024) (w : Fin 2048) :
    val_main_v7 (F := Ideal) X (ix3 0 h w) = colSum (colAt X h w) := by
  rw [val_main_v7_apply, val_main_cst_1_apply]
  show Ideal.ofBits .f32 0x00000000#32 + _ = _
  rw [Ideal.ofBits_zero_f32, zero_add]
  unfold colSum
  refine Finset.sum_congr rfl fun j _ => ?_
  have e : idx_main_v7 (ix3 (0 : Fin 1) h w) j = ix4 0 j h w :=
    funext fun a => Fin.ext (by match a with | ⟨0, _⟩ => rfl | ⟨1, _⟩ => rfl | ⟨2, _⟩ => rfl | ⟨3, _⟩ => rfl)
  rw [e, exp_apply]

theorem prob_apply (X : (⟨S1x19x1024x2048, .f32⟩ : BufTy).Contents (Elt Ideal)) (k : Fin 19) (h : Fin 1024) (w : Fin 2048) :
    val_main_v10 (F := Ideal) X (ix4 0 k h w) = prob (colAt X h w) k := by
  have e : idx_main_v8 (idx_main_v9 (ix4 (0 : Fin 1) k h w)) = ix3 0 h w :=
    funext fun a => Fin.ext (by match a with | ⟨0, _⟩ => rfl | ⟨1, _⟩ => rfl | ⟨2, _⟩ => rfl)
  rw [val_main_v10_apply, val_main_v9_apply, val_main_v8_apply, e, sum_apply, exp_apply]
  rfl

/-! ## The segment id -/

theorem seg_apply (X : (⟨S1x19x1024x2048, .f32⟩ : BufTy).Contents (Elt Ideal)) (k : Fin 19) (h : Fin 1024) (w : Fin 2048) :
    val_main_v26 (F := Ideal) X (ix4 0 k h w)
      = if validOf (colAt X h w) k = 1#1
          then IntOp.addi (IntOp.muli (BitVec.ofNat 32 k.val) 10#32) (binOf (colAt X h w) k) else 190#32 := by
  -- the class iota times ten, broadcast over the pixels, is read at the class; every constant at its one index;
  -- what is left is the specification's own terms, operation by operation
  have e : (idx_main_v21 (idx_main_v24 (ix4 (0 : Fin 1) k h w)) 0).val = k.val := rfl
  rw [val_main_v26_apply, val_main_v19_apply, val_main_v25_apply, val_main_v24_apply, val_main_v23_apply,
    val_main_v21_apply, val_main_v20_apply, val_main_v22_apply, val_main_c_6_apply, e,
    val_main_v17_apply, val_main_call0_v4_apply, val_main_call0_v3_apply, val_main_c_4_apply,
    val_main_call0_v2_apply, val_main_call0_v1_apply, val_main_call0_v0_apply, val_main_c_3_apply,
    val_main_v16_apply, val_main_v15_apply, val_main_c_apply, val_main_v14_apply, val_main_v13_apply,
    val_main_v12_apply, val_main_v11_apply, val_main_cst_2_apply, val_main_v18_apply, val_main_cst_5_apply,
    val_main_call1_v1_apply, val_main_call1_v0_apply, val_main_c_7_apply, prob_apply]
  rfl

/-! ## The label match -/

/-- A bit widened to 32 bits and read signed is the bit read unsigned. -/
private theorem bit_toInt : ∀ b : BitVec 1, (b.setWidth 32).toInt = (b.toNat : ℤ) := by decide

theorem correct_apply (T : (⟨S1x1024x2048, .i32⟩ : BufTy).Contents (Elt Ideal)) (k : Fin 19) (h : Fin 1024) (w : Fin 2048) :
    val_main_v44 (F := Ideal) T (ix4 0 k h w) = correctOf (T (ix3 0 h w)) k := by
  -- the label broadcast over the classes is read at the pixel; the class iota broadcast over the pixels at the class
  have e1 : idx_main_v40 (idx_main_v41 (ix4 (0 : Fin 1) k h w)) = ix3 0 h w :=
    funext fun a => Fin.ext (by match a with | ⟨0, _⟩ => rfl | ⟨1, _⟩ => rfl | ⟨2, _⟩ => rfl)
  have e2 : (idx_main_v21 (idx_main_v42 (ix4 (0 : Fin 1) k h w)) 0).val = k.val := rfl
  rw [val_main_v44_apply, val_main_v43_apply, val_main_v41_apply, val_main_v40_apply, val_main_v42_apply,
    val_main_v21_apply, val_main_v20_apply, e1, e2]
  show (((IntOp.cmpi .eq (T (ix3 0 h w)) (BitVec.ofNat 32 k.val)).toNat : ℝ) : EReal) = _
  unfold correctOf
  rw [bit_toInt, Int.cast_natCast]

end Cert.Hist.R

end
-- ==== Proof.LibVecGatherScatter.lean ====
/-
  A gather and a scatter-add of a vector, read at an entry (a general lemma: nothing here depends on a program).

  For an operand of shape [N], index arrays of shape [E, 1] and updates of shape [E], the scatter-add (no update
  window axis, inserted window axis 0, scatter axis 0, index vector axis 1) at entry n is x[n] plus the sum, over
  the positions e whose index idx[e], read signed, is n, of the update e: a position whose index is not an entry
  of the operand contributes nothing. The gather (no offset axis, collapsed axis 0, start index map [0], index
  vector axis 1, slice sizes [1]) at e is the operand at min(idx[e], N - 1) (the index read signed and clamped).
-/
import Idealize.ShloMosaic.Lib.ValueIdx
import Idealize.ShloMosaic.PureOps.Ideal.Laws

noncomputable section

namespace Cert.Lib.VecPass

open Idealize.ShloMosaic Idealize.ShloMosaic.ValueIdx

section Generic

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The only axis of a rank-1 shape is 0. -/
theorem fin1_eq (a : Fin 1) : a = 0 := Subsingleton.elim _ _

/-- The vector scatter's dimension numbers over an operand [N], indices [E, 1] and updates [E]. -/
abbrev scD1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update e starts at idx[e], read signed. -/
theorem sc1_start (idx : IVec ⟨2, ![E, 1]⟩ w) (e : Fin E) :
    (scD1 N E wf).start (ix1 e) idx 0 = (idx (ix2 e 0)).toInt := by
  unfold ScatterDims.start
  rw [dif_pos (show (0 : Fin 1) ∈ (scD1 N E wf).scatterDimsToOperandDims from List.mem_singleton.mpr rfl)]
  congr 2
  funext b
  match b with
  | ⟨0, _⟩ => rfl
  | ⟨1, _⟩ => rfl

/-- The operand's one axis is inserted: the window coordinate there is 0. -/
theorem sc1_window (e : Fin E) : (scD1 N E wf).window (ix1 e) 0 = 0 := by
  unfold ScatterDims.window
  have h : (0 : Fin 1) ∉ (scD1 N E wf).sKept :=
    (by decide : (0 : Fin 1) ∉ (List.finRange 1).filter (fun a => a ∉ ([0] : List (Fin 1))))
  rw [dif_neg h]

/-- Update e lands at n exactly when idx[e] = n (an update whose idx[e] is not an entry lands nowhere). -/
theorem sc1_result_iff (idx : IVec ⟨2, ![E, 1]⟩ w) (e : Fin E) (n : Fin N) :
    (scD1 N E wf).resultIdx? (ix1 e) idx = some (ix1 n) ↔ (idx (ix2 e 0)).toInt = (n.val : Int) := by
  have hn := n.isLt
  unfold ScatterDims.resultIdx?
  split
  · rename_i h
    have h0 := h 0
    rw [sc1_start, sc1_window] at h0
    constructor
    · intro hs
      have hs' := Option.some.inj hs
      have e0 := congrArg (fun f => (f 0).val) hs'
      simp only [sc1_start, sc1_window] at e0
      change _ = n.val at e0
      omega
    · intro ht
      congr 1
      funext a
      refine Fin.ext ?_
      obtain rfl := fin1_eq a
      show ((scD1 N E wf).start (ix1 e) idx 0 + ((scD1 N E wf).window (ix1 e) 0 : Int)).toNat = n.val
      rw [sc1_start, sc1_window, ht]; omega
  · rename_i h
    constructor
    · intro hs; exact absurd hs (by simp)
    · intro ht
      exfalso; apply h
      intro a
      obtain rfl := fin1_eq a
      rw [sc1_start, sc1_window, ht]
      show (0 : Int) ≤ (n.val : Int) + ((0 : Nat) : Int) ∧ (n.val : Int) + ((0 : Nat) : Int) < (N : Int)
      omega

/-- The scatter-add at entry n: x[n] plus the sum over the positions e with idx[e] = n of the update e. -/
theorem sc1_apply (x : (⟨1, ![N]⟩ : Shape).Idx → EReal) (idx : IVec ⟨2, ![E, 1]⟩ w)
    (upd : (⟨1, ![E]⟩ : Shape).Idx → EReal) (n : Fin N) :
    Ideal.hostScatterAdd (scD1 N E wf) x idx upd (ix1 n)
      = x (ix1 n) + ∑ e : Fin E, if (idx (ix2 e 0)).toInt = (n.val : Int) then upd (ix1 e) else 0 := by
  show x (ix1 n) + ∑ j ∈ Finset.univ.filter (fun j => (scD1 N E wf).resultIdx? j idx = some (ix1 n)), upd j = _
  congr 1
  rw [Finset.sum_filter, sum_idx1]
  exact Finset.sum_congr rfl fun e _ => if_congr (sc1_result_iff wf idx e n) rfl rfl

/-- The vector gather's dimension numbers over an operand [N], start indices [E, 1] and a result [E]. -/
abbrev gaD1 (N E : Nat) (wfg : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wfg

variable (wfg : GatherDims.WF ⟨1, ![N]⟩ ⟨2, ![E, 1]⟩ ⟨1, ![E]⟩ [] [0] [] [0] [] 1 ![1])

/-- The slice of result e starts at idx[e], read signed and clamped into [0, N - 1]. -/
theorem ga1_start (idx : IVec ⟨2, ![E, 1]⟩ w) (e : Fin E) :
    (gaD1 N E wfg).start (ix1 e) idx 0 = min (idx (ix2 e 0)).toInt.toNat (N - 1) := by
  unfold GatherDims.start
  rw [dif_pos (show (0 : Fin 1) ∈ (gaD1 N E wfg).startIndexMap from List.mem_singleton.mpr rfl)]
  have hsi : (gaD1 N E wfg).siIdx (ix1 e) ⟨List.idxOf (0 : Fin 1) (gaD1 N E wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- The operand's one axis is collapsed: the offset coordinate there is 0. -/
theorem ga1_off (e : Fin E) : (gaD1 N E wfg).offCoord (ix1 e) 0 = 0 := by
  unfold GatherDims.offCoord
  have h : (0 : Fin 1) ∉ (gaD1 N E wfg).sKept :=
    (by decide : (0 : Fin 1) ∉ (List.finRange 1).filter (fun a => a ∉ ([0] ++ [] : List (Fin 1))))
  rw [dif_neg h]

/-- The gather at e: the operand at min(idx[e], N - 1). -/
theorem ga1_apply {α : Type} (hN : 0 < N) (H : (⟨1, ![N]⟩ : Shape).Idx → α) (idx : IVec ⟨2, ![E, 1]⟩ w)
    (e : Fin E) :
    Host.gather (gaD1 N E wfg) H idx (ix1 e)
      = H (ix1 ⟨min (idx (ix2 e 0)).toInt.toNat (N - 1), by omega⟩) := by
  unfold Host.gather
  congr 1
  funext a
  refine Fin.ext ?_
  obtain rfl := fin1_eq a
  show (gaD1 N E wfg).start (ix1 e) idx 0 + (gaD1 N E wfg).batchCoord (ix1 e) 0
    + (gaD1 N E wfg).offCoord (ix1 e) 0 = min (idx (ix2 e 0)).toInt.toNat (N - 1)
  rw [ga1_start, ga1_off, GatherDims.batchCoord_eq_zero _ _ _ List.not_mem_nil, Nat.add_zero]

end Generic

end Cert.Lib.VecPass

end
-- ==== Proof.RScatter.lean ====
/-
  The reference's three histograms: each scatter-add into 191 zeros at the segment ids, cut to its first 190 entries
  and laid out [19, 10], is the histogram as a sum over the pixels (entry 10 k + b collects exactly the entries of
  class k whose probability is positive and whose bin is b).
-/
import proofs.«153688_j19292993094305_1_alg».proof.Proof.RPixel
import proofs.«153688_j19292993094305_1_alg».proof.Proof.LibVecGatherScatter
import proofs.«153688_j19292993094305_1_alg».proof.Proof.LibTileSum

set_option maxRecDepth 16384

noncomputable section

namespace Cert.Hist.R

open Idealize.ShloMosaic Idealize.ShloMosaic.ValueIdx
open Cert.ReferenceIdeal Cert.ReferenceIdeal.Gen Cert.ReferenceIdeal.Read Cert.Hist

/-! ## The scatter-add at one segment -/

/-- Entry n of the scatter-add of the updates u at the segment ids seg into z: z[n] plus the sum of the updates
    whose segment id, read signed, is n. -/
private theorem scat_entry (z : (⟨S191, .f32⟩ : BufTy).Contents (Elt Ideal))
    (seg : (⟨S39845888x1, .i32⟩ : BufTy).Contents (Elt Ideal))
    (u : (⟨S39845888, .f32⟩ : BufTy).Contents (Elt Ideal)) (n : Fin 191) :
    Host.scatterAdd (F := Ideal) (φ := .f32) scatter_S191_S39845888x1_S39845888_n_0_0_1 z seg u (ix1 n)
      = z (ix1 n) + ∑ e : Fin 39845888, if (seg (ix2 e 0)).toInt = (n.val : Int) then u (ix1 e) else 0 :=
  Cert.Lib.VecPass.sc1_apply (N := 191) (E := 39845888) Facts₀.scatter_S191_S39845888x1_S39845888_n_0_0_1_wf z seg u n

/-! ## Decoding a segment id

  A segment id is 10 k' + bin with k' < 19 and 0 <= bin <= 9 when the probability is positive, and 190 otherwise:
  all far below 2^31, so nothing wraps, and the id is 10 k + b (b < 10) exactly when k' = k, the probability is
  positive and bin = b. -/

/-- A word clipped to [0, 9] (signed) is at most 9 as a natural number. -/
private theorem bin_range (t : BitVec 32) : (IntOp.minsi 9#32 (IntOp.maxsi 0#32 t)).toNat ≤ 9 := by
  unfold IntOp.minsi IntOp.maxsi
  split_ifs <;> simp_all [BitVec.slt, BitVec.toInt_eq_toNat_cond] <;> omega

private theorem binOf_range (col : Fin 19 → EReal) (k : Fin 19) : (binOf col k).toNat ≤ 9 := bin_range _

/-- The segment id of class k' (valid bit v, bin r <= 9) is 10 k + b exactly when k' = k, v is set and r = b. -/
private theorem decode (k' k : Fin 19) (b : Fin 10) (v : BitVec 1) (r : BitVec 32) (hr : r.toNat ≤ 9) :
    (if v = 1#1 then IntOp.addi (IntOp.muli (BitVec.ofNat 32 k'.val) 10#32) r else 190#32).toInt
        = (((k.val * 10 + b.val : ℕ) : ℕ) : ℤ)
      ↔ k' = k ∧ v = 1#1 ∧ r = BitVec.ofNat 32 b.val := by
  have hk' := k'.isLt; have hk := k.isLt; have hb := b.isLt
  unfold IntOp.addi IntOp.muli
  split_ifs with hv
  · -- 10 k' + r < 200: neither the product nor the sum wraps, and the signed reading is the natural number
    have hn : (BitVec.ofNat 32 k'.val * 10#32 + r).toNat = k'.val * 10 + r.toNat := by
      simp only [BitVec.toNat_add, BitVec.toNat_mul, BitVec.toNat_ofNat]; omega
    rw [BitVec.toInt_eq_toNat_cond, hn, if_pos (by omega)]
    constructor
    · intro h
      have h' : k'.val * 10 + r.toNat = k.val * 10 + b.val := by exact_mod_cast h
      refine ⟨Fin.ext (by omega), hv, ?_⟩
      apply BitVec.eq_of_toNat_eq
      rw [BitVec.toNat_ofNat]; omega
    · rintro ⟨rfl, _, rfl⟩
      rw [BitVec.toNat_ofNat]
      have : b.val % 2 ^ 32 = b.val := by omega
      rw [this]
  · -- 190 is no 10 k + b with k < 19, b < 10
    constructor
    · intro h; exfalso; revert h; simp [BitVec.toInt_eq_toNat_cond]; omega
    · rintro ⟨_, h, _⟩; exact absurd h hv

/-! ## The mask as 0 or 1 -/

private theorem bit_cases (v : BitVec 1) : v = 0#1 ∨ v = 1#1 := by bv_omega

/-- A bit and a truth value, widened to 32 bits and read signed: 1 when both hold, else 0. -/
private theorem bit_toInt (v : BitVec 1) (c : Bool) :
    ((v &&& BitVec.ofBool c).setWidth 32).toInt = if v = 1#1 ∧ c = true then 1 else 0 := by
  rcases bit_cases v with rfl | rfl <;> cases c <;> decide

/-- The mask is 1 where the probability is positive and the bin is B, else 0. -/
private theorem mask_eq (col : Fin 19 → EReal) (k : Fin 19) (B : BitVec 32) :
    maskOf col k B = if validOf col k = 1#1 ∧ binOf col k = B then 1 else 0 := by
  unfold maskOf hit IntOp.andi IntOp.cmpi
  rw [bit_toInt]
  by_cases h : validOf col k = 1#1 ∧ binOf col k = B
  · rw [if_pos h, if_pos ⟨h.1, by simpa using h.2⟩]; simp
  · rw [if_neg h, if_neg (by simpa using h)]; simp

/-! ## The flat position e is entry (0, e / 2097152, e / 2048 mod 1024, e mod 2048) -/

private theorem unflat27 (e : Fin 39845888) :
    idx_main_v27 (ix1 e) = ix4 (0 : Fin 1) (⟨e.val / 2097152 % 19, by omega⟩ : Fin 19)
      (⟨e.val / 2048 % 1024, by omega⟩ : Fin 1024) (⟨e.val % 2048, by omega⟩ : Fin 2048) := by
  funext a
  match a with
  | ⟨0, _⟩ => rfl
  | ⟨1, _⟩ => rfl
  | ⟨2, _⟩ => rfl
  | ⟨3, _⟩ => rfl

private theorem unflat28 (e : Fin 39845888) :
    idx_main_v28 (ix1 e) = ix4 (0 : Fin 1) (⟨e.val / 2097152 % 19, by omega⟩ : Fin 19)
      (⟨e.val / 2048 % 1024, by omega⟩ : Fin 1024) (⟨e.val % 2048, by omega⟩ : Fin 2048) := by
  funext a
  match a with
  | ⟨0, _⟩ => rfl
  | ⟨1, _⟩ => rfl
  | ⟨2, _⟩ => rfl
  | ⟨3, _⟩ => rfl

private theorem unflat45 (e : Fin 39845888) :
    idx_main_v45 (ix1 e) = ix4 (0 : Fin 1) (⟨e.val / 2097152 % 19, by omega⟩ : Fin 19)
      (⟨e.val / 2048 % 1024, by omega⟩ : Fin 1024) (⟨e.val % 2048, by omega⟩ : Fin 2048) := by
  funext a
  match a with
  | ⟨0, _⟩ => rfl
  | ⟨1, _⟩ => rfl
  | ⟨2, _⟩ => rfl
  | ⟨3, _⟩ => rfl

/-- Entry (k, b) of the [19, 10] layout is entry 10 k + b of the 191 segments (one lemma per histogram). -/
private theorem idx_entry (k : Fin 19) (b : Fin 10) :
    idx_main_v32 (idx_main_v33 (ix2 k b)) = ix1 (⟨k.val * 10 + b.val, by omega⟩ : Fin 191) := by
  funext a
  match a with
  | ⟨0, _⟩ => rfl

private theorem idx_entry' (k : Fin 19) (b : Fin 10) :
    idx_main_v38 (idx_main_v39 (ix2 k b)) = ix1 (⟨k.val * 10 + b.val, by omega⟩ : Fin 191) := by
  funext a
  match a with
  | ⟨0, _⟩ => rfl

private theorem idx_entry'' (k : Fin 19) (b : Fin 10) :
    idx_main_v49 (idx_main_v50 (ix2 k b)) = ix1 (⟨k.val * 10 + b.val, by omega⟩ : Fin 191) := by
  funext a
  match a with
  | ⟨0, _⟩ => rfl

/-- Row e of the one-column index array is position e of the flat segment ids. -/
private theorem idx_col (e : Fin 39845888) : idx_main_v30 (ix2 e (0 : Fin 1)) = ix1 e := by
  funext a
  match a with
  | ⟨0, _⟩ => rfl

/-- The f32 pattern of 1.0 is the extended real 1. -/
private theorem ofBits_one_f32 : Ideal.ofBits .f32 0x3F800000#32 = 1 := by
  simp [Ideal.ofBits, Ideal.ieee, -EReal.coe_mul]; norm_num

/-! ## One histogram entry as a sum over the pixels -/

/-- The sum over the flat positions e of the entries g(k', h, w) whose segment id is 10 k + b: re-indexed by
    (k', h, w), only k' = k contributes, and there the condition "positive probability and bin b" is the mask. -/
private theorem collapse (X : (⟨S1x19x1024x2048, .f32⟩ : BufTy).Contents (Elt Ideal))
    (g : Fin 19 → Fin 1024 → Fin 2048 → EReal) (k : Fin 19) (b : Fin 10) :
    (∑ e : Fin 39845888,
        if (val_main_v26 (F := Ideal) X (ix4 (0 : Fin 1) (⟨e.val / 2097152 % 19, by omega⟩ : Fin 19)
              (⟨e.val / 2048 % 1024, by omega⟩ : Fin 1024) (⟨e.val % 2048, by omega⟩ : Fin 2048))).toInt
            = (((k.val * 10 + b.val : ℕ) : ℕ) : ℤ)
          then g ⟨e.val / 2097152 % 19, by omega⟩ ⟨e.val / 2048 % 1024, by omega⟩ ⟨e.val % 2048, by omega⟩ else 0)
      = ∑ h : Fin 1024, ∑ w : Fin 2048, g k h w * maskOf (colAt X h w) k (BitVec.ofNat 32 b.val) := by
  -- the summand as a function of three natural numbers (0 outside the box)
  let G : ℕ → ℕ → ℕ → EReal := fun k' h w =>
    if hk : k' < 19 then if hh : h < 1024 then if hw : w < 2048 then
      (if (val_main_v26 (F := Ideal) X (ix4 (0 : Fin 1) (⟨k', hk⟩ : Fin 19) (⟨h, hh⟩ : Fin 1024) (⟨w, hw⟩ : Fin 2048))).toInt
            = (((k.val * 10 + b.val : ℕ) : ℕ) : ℤ)
        then g ⟨k', hk⟩ ⟨h, hh⟩ ⟨w, hw⟩ else 0)
    else 0 else 0 else 0
  have hG : ∀ (k' h w : ℕ) (hk : k' < 19) (hh : h < 1024) (hw : w < 2048), G k' h w =
      (if (val_main_v26 (F := Ideal) X (ix4 (0 : Fin 1) (⟨k', hk⟩ : Fin 19) (⟨h, hh⟩ : Fin 1024) (⟨w, hw⟩ : Fin 2048))).toInt
            = (((k.val * 10 + b.val : ℕ) : ℕ) : ℤ)
        then g ⟨k', hk⟩ ⟨h, hh⟩ ⟨w, hw⟩ else 0) := by
    intro k' h w hk hh hw
    show (if hk : k' < 19 then _ else _) = _
    rw [dif_pos hk, dif_pos hh, dif_pos hw]
  have h1 : (∑ e : Fin 39845888,
        if (val_main_v26 (F := Ideal) X (ix4 (0 : Fin 1) (⟨e.val / 2097152 % 19, by omega⟩ : Fin 19)
              (⟨e.val / 2048 % 1024, by omega⟩ : Fin 1024) (⟨e.val % 2048, by omega⟩ : Fin 2048))).toInt
            = (((k.val * 10 + b.val : ℕ) : ℕ) : ℤ)
          then g ⟨e.val / 2097152 % 19, by omega⟩ ⟨e.val / 2048 % 1024, by omega⟩ ⟨e.val % 2048, by omega⟩ else 0)
      = ∑ e : Fin (19 * 1024 * 2048), G (e.val / (1024 * 2048)) (e.val / 2048 % 1024) (e.val % 2048) := by
    refine Finset.sum_congr rfl fun e _ => ?_
    have e1 : e.val / (1024 * 2048) = e.val / 2097152 % 19 := by have := e.isLt; omega
    exact ((congrArg (fun t => G t (e.val / 2048 % 1024) (e.val % 2048)) e1).trans
      (hG _ _ _ (by omega) (by omega) (by omega))).symm
  rw [h1, TileSum.sum_flat3 19 1024 2048 G]
  -- every class but k contributes nothing; class k contributes g times the mask
  have hterm : ∀ (k' : Fin 19) (h : Fin 1024) (w : Fin 2048), G k'.val h.val w.val
      = if k' = k then g k h w * maskOf (colAt X h w) k (BitVec.ofNat 32 b.val) else 0 := by
    intro k' h w
    rw [hG _ _ _ k'.isLt h.isLt w.isLt]
    show (if (val_main_v26 (F := Ideal) X (ix4 0 k' h w)).toInt = _ then g k' h w else 0) = _
    rw [seg_apply, if_congr (decode k' k b _ _ (binOf_range _ _)) rfl rfl, mask_eq]
    by_cases hk : k' = k
    · subst hk
      rw [if_pos rfl]
      by_cases hm : validOf (colAt X h w) k' = 1#1 ∧ binOf (colAt X h w) k' = BitVec.ofNat 32 b.val
      · rw [if_pos ⟨rfl, hm⟩, if_pos hm, mul_one]
      · rw [if_neg (fun hh => hm hh.2), if_neg hm, mul_zero]
    · rw [if_neg (fun hh => hk hh.1), if_neg hk]
  simp only [hterm]
  rw [Finset.sum_eq_single k (fun k' _ hk => by simp [hk]) (fun hk => absurd (Finset.mem_univ k) hk)]
  simp

/-- A scatter-add into zeros z, at the reference's segment ids, of updates u that are g(k', h, w) at the flat
    position of (k', h, w): its entry 10 k + b is the sum over the pixels of g(k, h, w) times the mask. -/
private theorem hist_entry (X : (⟨S1x19x1024x2048, .f32⟩ : BufTy).Contents (Elt Ideal))
    (z : (⟨S191, .f32⟩ : BufTy).Contents (Elt Ideal)) (seg : (⟨S39845888x1, .i32⟩ : BufTy).Contents (Elt Ideal))
    (u : (⟨S39845888, .f32⟩ : BufTy).Contents (Elt Ideal)) (g : Fin 19 → Fin 1024 → Fin 2048 → EReal)
    (hz : ∀ i, z i = 0)
    (hseg : ∀ e : Fin 39845888, seg (ix2 e 0) = val_main_v27 (F := Ideal) X (ix1 e))
    (hu : ∀ e : Fin 39845888, u (ix1 e)
      = g ⟨e.val / 2097152 % 19, by omega⟩ ⟨e.val / 2048 % 1024, by omega⟩ ⟨e.val % 2048, by omega⟩)
    (k : Fin 19) (b : Fin 10) :
    Host.scatterAdd (F := Ideal) (φ := .f32) scatter_S191_S39845888x1_S39845888_n_0_0_1 z seg u
        (ix1 (⟨k.val * 10 + b.val, by omega⟩ : Fin 191))
      = ∑ h : Fin 1024, ∑ w : Fin 2048, g k h w * maskOf (colAt X h w) k (BitVec.ofNat 32 b.val) := by
  rw [scat_entry, hz, zero_add, ← collapse X g k b]
  refine Finset.sum_congr rfl fun e _ => ?_
  rw [hseg, val_main_v27_apply, unflat27, hu]

/-! ## The three histograms -/

theorem conf_eq (X : (⟨S1x19x1024x2048, .f32⟩ : BufTy).Contents (Elt Ideal)) :
    val_main_v33 (F := Ideal) X = confH X := by
  funext j
  obtain ⟨k, b, rfl⟩ : ∃ k b, j = ix2 k b := ⟨j 0, j 1, eq_ix2 j⟩
  rw [val_main_v33_apply, val_main_v32_apply, idx_entry]
  unfold val_main_v31
  -- the updates are the probabilities
  exact hist_entry X _ _ _ (fun k h w => prob (colAt X h w) k)
    (fun i => by rw [val_main_v29_apply, val_main_cst_8_apply]; exact Ideal.ofBits_zero_f32)
    (fun e => by rw [val_main_v30_apply, idx_col])
    (fun e => by rw [val_main_v28_apply, unflat28, prob_apply]) k b

theorem pred_eq (X : (⟨S1x19x1024x2048, .f32⟩ : BufTy).Contents (Elt Ideal)) :
    val_main_v39 (F := Ideal) X = predH X := by
  funext j
  obtain ⟨k, b, rfl⟩ : ∃ k b, j = ix2 k b := ⟨j 0, j 1, eq_ix2 j⟩
  rw [val_main_v39_apply, val_main_v38_apply, idx_entry']
  unfold val_main_v37
  -- the updates are all 1, and 1 times the mask is the mask
  refine (hist_entry X _ _ _ (fun _ _ _ => 1)
    (fun i => by rw [val_main_v35_apply, val_main_cst_10_apply]; exact Ideal.ofBits_zero_f32)
    (fun e => by rw [val_main_v36_apply]; exact congrArg _ (idx_col e))
    (fun e => by rw [val_main_v34_apply, val_main_cst_9_apply]; exact ofBits_one_f32) k b).trans ?_
  simp only [one_mul]
  rfl

theorem acc_eq (X : (⟨S1x19x1024x2048, .f32⟩ : BufTy).Contents (Elt Ideal)) (T : (⟨S1x1024x2048, .i32⟩ : BufTy).Contents (Elt Ideal)) :
    val_main_v50 (F := Ideal) X T = accH X T := by
  funext j
  obtain ⟨k, b, rfl⟩ : ∃ k b, j = ix2 k b := ⟨j 0, j 1, eq_ix2 j⟩
  rw [val_main_v50_apply, val_main_v49_apply, idx_entry'']
  unfold val_main_v48
  -- the updates are the label matches
  exact hist_entry X _ _ _ (fun k h w => correctOf (T (ix3 0 h w)) k)
    (fun i => by rw [val_main_v46_apply, val_main_cst_11_apply]; exact Ideal.ofBits_zero_f32)
    (fun e => by rw [val_main_v47_apply]; exact congrArg _ (idx_col e))
    (fun e => by rw [val_main_v45_apply, unflat45, correct_apply]) k b

end Cert.Hist.R

end
-- ==== Proof.RRun.lean ====
/-
  The idealized reference's run: its result is the loss of the three histograms of the launched arrays; the
  arguments end unchanged.
-/
import proofs.«153688_j19292993094305_1_alg».proof.Proof.RScatter

set_option maxRecDepth 16384

noncomputable section

namespace Cert.Hist.R

open Idealize.ShloMosaic Idealize.ShloMosaic.TcCoe Idealize.ShloMosaic.ValueIdx Idealize.SL.Sem
open Cert.ReferenceIdeal Cert.ReferenceIdeal.Gen Cert.ReferenceIdeal.Read Cert.Hist

/-- The reference's last operations are the loss of its three histograms. -/
theorem loss_eq (X : (⟨S1x19x1024x2048, .f32⟩ : BufTy).Contents (Elt Ideal)) (T : (⟨S1x1024x2048, .i32⟩ : BufTy).Contents (Elt Ideal)) :
    val_main_v63 (F := Ideal) X T
      = loss bcast_S_S19x10 reducesTo_S19x10_S_d0_1 h_S_ (val_main_v33 X) (val_main_v39 X) (val_main_v50 X T) := by
  -- Stage by stage the reference's last seventeen operations are the composition that defines the loss.
  unfold val_main_v63 val_main_v62 val_main_v61 val_main_v60 val_main_v59 val_main_v58 val_main_v57 val_main_v56
    val_main_v55 val_main_v54 val_main_v53 val_main_v52 val_main_v51 val_main_cst_12 val_main_cst_13 val_main_cst_14
    val_main_cst_15 loss
  rfl

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v63)
        = loss bcast_S_S19x10 reducesTo_S19x10_S_d0_1 h_S_
            (confH (m ((c.tc : Thread nD τ).loc main_arg0))) (predH (m ((c.tc : Thread nD τ).loc main_arg0)))
            (accH (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  -- The run ends with the result at the composed term of the arguments; that term is the last stage, the last
  -- stage is the loss of the three scattered histograms, and each of those is the histogram of the specification.
  refine (θ_run defs _ _).mono (fun r h c => ⟨?_, (h c).2.1, (h c).2.2⟩) (Cert.ReferenceIdeal.Value.run (F := Ideal) m ρ)
  refine (h c).1.trans ?_
  rw [val_main_v63_eq m c, loss_eq, conf_eq, pred_eq, acc_eq]

end Cert.Hist.R

end
-- ==== Proof.lean ====
/-
  The certificate of the calibration-histogram kernel against its jnp reference, over the extended reals.

  Both programs compute, for every (class k, bin b), three sums over the 1024 x 2048 pixels — the softmax probability
  of class k, the count, and the label match, each over the pixels whose probability of class k is positive and falls
  in bin b — and then one and the same loss of the three [19, 10] arrays. The kernel forms the sums tile by tile over
  an 8 x 16 grid of 128 x 128 tiles, multiplying by a 0/1 mask and adding into blocks that stay in place across the
  grid; the reference scatters every entry into segment 10 k + b. A masked sum and a sum over the entries a segment
  collects are the same sum, in any order, on the extended reals; no finiteness is used.

  The word-level kernel and its idealization run (the generated frames); the reference runs (its generated run);
  the ideal pass rewrote nothing.
-/
import proofs.«153688_j19292993094305_1_alg».proof.Defs
import proofs.«153688_j19292993094305_1_alg».proof.Proof.Gen.Kernel
import proofs.«153688_j19292993094305_1_alg».proof.Proof.Gen.Kernel.Skeleton
import proofs.«153688_j19292993094305_1_alg».proof.Proof.Gen.Kernel.Launch
import proofs.«153688_j19292993094305_1_alg».proof.Proof.Gen.Kernel.Points
import proofs.«153688_j19292993094305_1_alg».proof.Proof.Gen.Kernel.Frame
import proofs.«153688_j19292993094305_1_alg».proof.Proof.Gen.KernelIdeal
import proofs.«153688_j19292993094305_1_alg».proof.Proof.Gen.KernelIdeal.Skeleton
import proofs.«153688_j19292993094305_1_alg».proof.Proof.Gen.KernelIdeal.Launch
import proofs.«153688_j19292993094305_1_alg».proof.Proof.Gen.KernelIdeal.Points
import proofs.«153688_j19292993094305_1_alg».proof.Proof.Gen.KernelIdeal.Frame
import proofs.«153688_j19292993094305_1_alg».proof.Proof.Gen.ReferenceIdeal
import proofs.«153688_j19292993094305_1_alg».proof.Proof.Gen.ReferenceIdeal.Run
import proofs.«153688_j19292993094305_1_alg».proof.Proof.Gen.ReferenceIdeal.Read
import proofs.«153688_j19292993094305_1_alg».proof.Proof.Gen.Pre_finite_inputs
import proofs.«153688_j19292993094305_1_alg».proof.Proof.KRun
import proofs.«153688_j19292993094305_1_alg».proof.Proof.RRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the loss of the three histograms of the same arrays. -/
theorem algebraic : Cert.algebraic_KernelIdeal_ReferenceIdeal := by
  intro m ρ m' ρ' _ hagree
  refine ⟨_, Cert.Hist.K.run m ρ, ?_⟩
  refine (θ_run Cert.ReferenceIdeal.defs _ _).mono (fun _ h c => ⟨(h c).1.trans ?_, (h c).2⟩)
    (Cert.Hist.R.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
